-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "c_2_7" .f32 0x3E924925#32 ((2 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S4194304x6 : Shape := ⟨2, ![4194304, 6]⟩
abbrev S4194304x1 : Shape := ⟨2, ![4194304, 1]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S4194304x1 : S_.BroadcastsInDim S4194304x1 (![] : Fin 0 → Fin S4194304x1.rank)
  reducesTo_S4194304x1_S_d0_1 : S4194304x1.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S64x8192 .f32) (main_arg1 : IVec S4194304x6 32) (main_arg2 : FVec F S4194304x1 .f32) (main_arg3 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S4194304x1 .f32 := Host.absf main_arg2
  let main_cst_0 : FVec F S_ .f32 := constant S_ .f32 0x7F800000#32
  let main_v5 : FVec F S4194304x1 .f32 := broadcastInDim S4194304x1 ![] bcast_S_S4194304x1 main_cst_0
  let main_v6 : IVec S4194304x1 1 := cmpf .olt main_v4 main_v5
  let main_c_1 : IVec S_ 1 := constantI S_ 1 1#1
  let main_v7 : IVec S_ 1 := (fun x v => Host.reduce IntOp.andi x v reducesTo_S4194304x1_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S64x8192 : Shape := ⟨2, ![64, 8192]⟩
abbrev S4194304x6 : Shape := ⟨2, ![4194304, 6]⟩
abbrev S4194304x1 : Shape := ⟨2, ![4194304, 1]⟩
abbrev S8192 : Shape := ⟨1, ![8192]⟩
abbrev S8192x512x6 : Shape := ⟨3, ![8192, 512, 6]⟩
abbrev S8192x512x1 : Shape := ⟨3, ![8192, 512, 1]⟩
abbrev S8192x512 : Shape := ⟨2, ![8192, 512]⟩
abbrev S_ : Shape := ⟨0, ![]⟩
abbrev S1x8192x512 : Shape := ⟨3, ![1, 8192, 512]⟩
abbrev S2x8192x512 : Shape := ⟨3, ![2, 8192, 512]⟩
abbrev S1x8192 : Shape := ⟨2, ![1, 8192]⟩
abbrev S64x512x16 : Shape := ⟨3, ![64, 512, 16]⟩
abbrev S64x16x512 : Shape := ⟨3, ![64, 16, 512]⟩
abbrev S64x512 : Shape := ⟨2, ![64, 512]⟩
abbrev S2x1024x512 : Shape := ⟨3, ![2, 1024, 512]⟩
abbrev S1024x512 : Shape := ⟨2, ![1024, 512]⟩
abbrev S1x1024 : Shape := ⟨2, ![1, 1024]⟩
abbrev S64x1024 : Shape := ⟨2, ![64, 1024]⟩
abbrev S1x1024x512 : Shape := ⟨3, ![1, 1024, 512]⟩

abbrev nBuf : Space → Nat
  | .hbm => 63
  | .vmem => 10
  | .smem => 0
  | _ => 0

abbrev bufTy : (tb : Table) → Fin (tcTables nBuf tb) → BufTy
  | .hbm, ⟨0, _⟩ => ⟨S64x8192, .f32⟩
  | .hbm, ⟨1, _⟩ => ⟨S4194304x6, .i32⟩
  | .hbm, ⟨2, _⟩ => ⟨S4194304x1, .f32⟩
  | .hbm, ⟨3, _⟩ => ⟨S8192, .f32⟩
  | .hbm, ⟨4, _⟩ => ⟨S8192x512x6, .i32⟩
  | .hbm, ⟨5, _⟩ => ⟨S8192x512x1, .i32⟩
  | .hbm, ⟨6, _⟩ => ⟨S8192x512, .i32⟩
  | .hbm, ⟨7, _⟩ => ⟨S_, .i32⟩
  | .hbm, ⟨8, _⟩ => ⟨S8192x512, .i32⟩
  | .hbm, ⟨9, _⟩ => ⟨S8192x512, .i32⟩
  | .hbm, ⟨10, _⟩ => ⟨S8192x512x1, .i32⟩
  | .hbm, ⟨11, _⟩ => ⟨S8192x512, .i32⟩
  | .hbm, ⟨12, _⟩ => ⟨S_, .i32⟩
  | .hbm, ⟨13, _⟩ => ⟨S8192x512, .i32⟩
  | .hbm, ⟨14, _⟩ => ⟨S8192x512, .i32⟩
  | .hbm, ⟨15, _⟩ => ⟨S8192x512x1, .i32⟩
  | .hbm, ⟨16, _⟩ => ⟨S8192x512, .i32⟩
  | .hbm, ⟨17, _⟩ => ⟨S_, .i32⟩
  | .hbm, ⟨18, _⟩ => ⟨S8192x512, .i32⟩
  | .hbm, ⟨19, _⟩ => ⟨S8192x512, .i32⟩
  | .hbm, ⟨20, _⟩ => ⟨S8192x512x1, .i32⟩
  | .hbm, ⟨21, _⟩ => ⟨S8192x512, .i32⟩
  | .hbm, ⟨22, _⟩ => ⟨S_, .i32⟩
  | .hbm, ⟨23, _⟩ => ⟨S8192x512, .i32⟩
  | .hbm, ⟨24, _⟩ => ⟨S8192x512, .i32⟩
  | .hbm, ⟨25, _⟩ => ⟨S8192x512x1, .i32⟩
  | .hbm, ⟨26, _⟩ => ⟨S8192x512, .i32⟩
  | .hbm, ⟨27, _⟩ => ⟨S_, .i32⟩
  | .hbm, ⟨28, _⟩ => ⟨S8192x512, .i32⟩
  | .hbm, ⟨29, _⟩ => ⟨S8192x512, .i32⟩
  | .hbm, ⟨30, _⟩ => ⟨S8192x512x1, .i32⟩
  | .hbm, ⟨31, _⟩ => ⟨S8192x512, .i32⟩
  | .hbm, ⟨32, _⟩ => ⟨S_, .i32⟩
  | .hbm, ⟨33, _⟩ => ⟨S8192x512, .i32⟩
  | .hbm, ⟨34, _⟩ => ⟨S8192x512, .i32⟩
  | .hbm, ⟨35, _⟩ => ⟨S_, .i32⟩
  | .hbm, ⟨36, _⟩ => ⟨S8192x512, .i32⟩
  | .hbm, ⟨37, _⟩ => ⟨S8192x512, .i32⟩
  | .hbm, ⟨38, _⟩ => ⟨S_, .i32⟩
  | .hbm, ⟨39, _⟩ => ⟨S8192x512, .i32⟩
  | .hbm, ⟨40, _⟩ => ⟨S8192x512, .i32⟩
  | .hbm, ⟨41, _⟩ => ⟨S8192x512, .i32⟩
  | .hbm, ⟨42, _⟩ => ⟨S8192x512, .i32⟩
  | .hbm, ⟨43, _⟩ => ⟨S_, .i32⟩
  | .hbm, ⟨44, _⟩ => ⟨S8192x512, .i32⟩
  | .hbm, ⟨45, _⟩ => ⟨S8192x512, .i32⟩
  | .hbm, ⟨46, _⟩ => ⟨S_, .i32⟩
  | .hbm, ⟨47, _⟩ => ⟨S8192x512, .i32⟩
  | .hbm, ⟨48, _⟩ => ⟨S8192x512, .i32⟩
  | .hbm, ⟨49, _⟩ => ⟨S8192x512, .i32⟩
  | .hbm, ⟨50, _⟩ => ⟨S8192x512, .i32⟩
  | .hbm, ⟨51, _⟩ => ⟨S1x8192x512, .i32⟩
  | .hbm, ⟨52, _⟩ => ⟨S1x8192x512, .i32⟩
  | .hbm, ⟨53, _⟩ => ⟨S2x8192x512, .i32⟩
  | .hbm, ⟨54, _⟩ => ⟨S8192x512, .f32⟩
  | .hbm, ⟨55, _⟩ => ⟨S1x8192, .f32⟩
  | .hbm, ⟨56, _⟩ => ⟨S64x512x16, .f32⟩
  | .hbm, ⟨57, _⟩ => ⟨S64x16x512, .f32⟩
  | .hbm, ⟨58, _⟩ => ⟨S64x8192, .f32⟩
  | .hbm, ⟨59, _⟩ => ⟨S64x8192, .bf16⟩
  | .hbm, ⟨60, _⟩ => ⟨S_, .f32⟩
  | .hbm, ⟨61, _⟩ => ⟨S64x512, .f32⟩
  | .hbm, ⟨62, _⟩ => ⟨S64x8192, .f32⟩
  | .local _ .vmem, ⟨0, _⟩ => ⟨S64x8192, .bf16⟩
  | .local _ .vmem, ⟨1, _⟩ => ⟨S64x512, .f32⟩
  | .local _ .vmem, ⟨2, _⟩ => ⟨S2x1024x512, .i32⟩
  | .local _ .vmem, ⟨3, _⟩ => ⟨S2x1024x512, .i32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S64x1024, .f32⟩
  | .local _ .vmem, ⟨9, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4194304x6_S8192x512x6 : S4194304x6.ShapeCasts S8192x512x6
  slices_S8192x512x6_S8192x512x1_0_0_0 : S8192x512x6.Slices ![0, 0, 0] S8192x512x1
  shapeCasts_S8192x512x1_S8192x512 : S8192x512x1.ShapeCasts S8192x512
  bcast_S_S8192x512 : S_.BroadcastsInDim S8192x512 (![] : Fin 0 → Fin S8192x512.rank)
  slices_S8192x512x6_S8192x512x1_0_0_1 : S8192x512x6.Slices ![0, 0, 1] S8192x512x1
  slices_S8192x512x6_S8192x512x1_0_0_2 : S8192x512x6.Slices ![0, 0, 2] S8192x512x1
  slices_S8192x512x6_S8192x512x1_0_0_3 : S8192x512x6.Slices ![0, 0, 3] S8192x512x1
  slices_S8192x512x6_S8192x512x1_0_0_4 : S8192x512x6.Slices ![0, 0, 4] S8192x512x1
  slices_S8192x512x6_S8192x512x1_0_0_5 : S8192x512x6.Slices ![0, 0, 5] S8192x512x1
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  shapeCasts_S4194304x1_S8192x512 : S4194304x1.ShapeCasts S8192x512
  shapeCasts_S8192_S1x8192 : S8192.ShapeCasts S1x8192
  shapeCasts_S64x8192_S64x512x16 : S64x8192.ShapeCasts S64x512x16
  transposes_S64x512x16_S64x16x512_0_2_1 : S64x512x16.Transposes [0, 2, 1] S64x16x512
  shapeCasts_S64x16x512_S64x8192 : S64x16x512.ShapeCasts S64x8192
  bitsLt_bf16_f32 : FTy.bits .bf16 < FTy.bits .f32
  reducesTo_S64x512x16_S64x512_d2 : S64x512x16.ReducesTo [2] S64x512
  h_S_ : 0 < S_.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2x1024x512_S2x1024x512_0_0_0 : ∀ a, (![0, 0, 0] : Fin 3 → Nat) a + S2x1024x512.size a ≤ S2x1024x512.size a
  h_S2x1024x512 : 0 < S2x1024x512.numel
  shapeCasts_S2x1024x512_S2x1024x512 : S2x1024x512.ShapeCasts S2x1024x512
  slices_S2x1024x512_o0_0_0_S1x1024x512 : S2x1024x512.Slices ![0, 0, 0] S1x1024x512
  shapeCasts_S1x1024x512_S1024x512 : S1x1024x512.ShapeCasts S1024x512
  slices_S2x1024x512_o1_0_0_S1x1024x512 : S2x1024x512.Slices ![1, 0, 0] S1x1024x512
  slices_S64x8192_o0_0_S64x512 : S64x8192.Slices ![0, 0] S64x512
  slices_S64x8192_o0_512_S64x512 : S64x8192.Slices ![0, 512] S64x512
  slices_S64x8192_o0_1024_S64x512 : S64x8192.Slices ![0, 1024] S64x512
  slices_S64x8192_o0_1536_S64x512 : S64x8192.Slices ![0, 1536] S64x512
  slices_S64x8192_o0_2048_S64x512 : S64x8192.Slices ![0, 2048] S64x512
  slices_S64x8192_o0_2560_S64x512 : S64x8192.Slices ![0, 2560] S64x512
  slices_S64x8192_o0_3072_S64x512 : S64x8192.Slices ![0, 3072] S64x512
  slices_S64x8192_o0_3584_S64x512 : S64x8192.Slices ![0, 3584] S64x512
  slices_S64x8192_o0_4096_S64x512 : S64x8192.Slices ![0, 4096] S64x512
  slices_S64x8192_o0_4608_S64x512 : S64x8192.Slices ![0, 4608] S64x512
  slices_S64x8192_o0_5120_S64x512 : S64x8192.Slices ![0, 5120] S64x512
  slices_S64x8192_o0_5632_S64x512 : S64x8192.Slices ![0, 5632] S64x512
  slices_S64x8192_o0_6144_S64x512 : S64x8192.Slices ![0, 6144] S64x512
  slices_S64x8192_o0_6656_S64x512 : S64x8192.Slices ![0, 6656] S64x512
  slices_S64x8192_o0_7168_S64x512 : S64x8192.Slices ![0, 7168] S64x512
  slices_S64x8192_o0_7680_S64x512 : S64x8192.Slices ![0, 7680] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  dot_S64x512_S1024x512_S64x1024_1_1_0_0_n_n_wf : DotDims.WF S64x512 S1024x512 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S2x8192x512.size a
  hwx0_2 : ∀ i : grid0.Coords, EltTy.bits .i32 = 32 ∨ (Rect.block (s := S2x8192x512) S2x1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x8192.size a
  hwx0_5 : ∀ i : grid0.Coords, EltTy.bits .f32 = 32 ∨ (Rect.block (s := S64x8192) S64x1024.size (cc0_transform_5 i) (hinb0_5 i)).WholeWords (EltTy.packing .f32)

variable [Facts₀]

def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf

abbrev win0_0 : Pipeline.Window sig grid0 :=
  Pipeline.Window.ofSpec (Memref.whole main_v45) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v46) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v47) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x8192 : Shape := ⟨2, ![64, 8192]⟩
abbrev S4194304x6 : Shape := ⟨2, ![4194304, 6]⟩
abbrev S4194304x1 : Shape := ⟨2, ![4194304, 1]⟩
abbrev S8192 : Shape := ⟨1, ![8192]⟩
abbrev S8388608x3 : Shape := ⟨2, ![8388608, 3]⟩
abbrev S8388608x1 : Shape := ⟨2, ![8388608, 1]⟩
abbrev S8388608 : Shape := ⟨1, ![8388608]⟩
abbrev S_ : Shape := ⟨0, ![]⟩
abbrev S8388608x8 : Shape := ⟨2, ![8388608, 8]⟩
abbrev S4194304x16 : Shape := ⟨2, ![4194304, 16]⟩
abbrev S67108864 : Shape := ⟨1, ![67108864]⟩
abbrev S8192x8192 : Shape := ⟨2, ![8192, 8192]⟩
abbrev S1x8192 : Shape := ⟨2, ![1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S4194304x6, .i32⟩
  | .hbm, ⟨2, _⟩ => ⟨S4194304x1, .f32⟩
  | .hbm, ⟨3, _⟩ => ⟨S8192, .f32⟩
  | .hbm, ⟨4, _⟩ => ⟨S8388608x3, .i32⟩
  | .hbm, ⟨5, _⟩ => ⟨S8388608x1, .i32⟩
  | .hbm, ⟨6, _⟩ => ⟨S8388608, .i32⟩
  | .hbm, ⟨7, _⟩ => ⟨S8388608x1, .i32⟩
  | .hbm, ⟨8, _⟩ => ⟨S8388608, .i32⟩
  | .hbm, ⟨9, _⟩ => ⟨S8388608x1, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S_, .i32⟩
  | .hbm, ⟨21, _⟩ => ⟨S8388608, .i32⟩
  | .hbm, ⟨22, _⟩ => ⟨S8388608, .i32⟩
  | .hbm, ⟨23, _⟩ => ⟨S_, .i32⟩
  | .hbm, ⟨24, _⟩ => ⟨S8388608, .i32⟩
  | .hbm, ⟨25, _⟩ => ⟨S8388608, .i32⟩
  | .hbm, ⟨26, _⟩ => ⟨S_, .i32⟩
  | .hbm, ⟨27, _⟩ => ⟨S8388608, .i32⟩
  | .hbm, ⟨28, _⟩ => ⟨S8388608, .i32⟩
  | .hbm, ⟨29, _⟩ => ⟨S_, .i32⟩
  | .hbm, ⟨30, _⟩ => ⟨S8388608, .i32⟩
  | .hbm, ⟨31, _⟩ => ⟨S8388608, .i32⟩
  | .hbm, ⟨32, _⟩ => ⟨S_, .i32⟩
  | .hbm, ⟨33, _⟩ => ⟨S8388608, .i32⟩
  | .hbm, ⟨34, _⟩ => ⟨S8388608, .i32⟩
  | .hbm, ⟨35, _⟩ => ⟨S8388608, .i32⟩
  | .hbm, ⟨36, _⟩ => ⟨S_, .i32⟩
  | .hbm, ⟨37, _⟩ => ⟨S8388608, .i32⟩
  | .hbm, ⟨38, _⟩ => ⟨S8388608, .i32⟩
  | .hbm, ⟨39, _⟩ => ⟨S_, .i32⟩
  | .hbm, ⟨40, _⟩ => ⟨S8388608, .i32⟩
  | .hbm, ⟨41, _⟩ => ⟨S8388608, .i32⟩
  | .hbm, ⟨42, _⟩ => ⟨S_, .i32⟩
  | .hbm, ⟨43, _⟩ => ⟨S8388608, .i32⟩
  | .hbm, ⟨44, _⟩ => ⟨S8388608, .i32⟩
  | .hbm, ⟨45, _⟩ => ⟨S_, .i32⟩
  | .hbm, ⟨46, _⟩ => ⟨S8388608, .i32⟩
  | .hbm, ⟨47, _⟩ => ⟨S8388608, .i32⟩
  | .hbm, ⟨48, _⟩ => ⟨S_, .i32⟩
  | .hbm, ⟨49, _⟩ => ⟨S8388608, .i32⟩
  | .hbm, ⟨50, _⟩ => ⟨S8388608, .i32⟩
  | .hbm, ⟨51, _⟩ => ⟨S_, .i32⟩
  | .hbm, ⟨52, _⟩ => ⟨S8388608, .i32⟩
  | .hbm, ⟨53, _⟩ => ⟨S8388608, .i32⟩
  | .hbm, ⟨54, _⟩ => ⟨S_, .i32⟩
  | .hbm, ⟨55, _⟩ => ⟨S8388608, .i32⟩
  | .hbm, ⟨56, _⟩ => ⟨S8388608, .i32⟩
  | .hbm, ⟨57, _⟩ => ⟨S_, .i32⟩
  | .hbm, ⟨58, _⟩ => ⟨S8388608, .i32⟩
  | .hbm, ⟨59, _⟩ => ⟨S8388608, .i32⟩
  | .hbm, ⟨60, _⟩ => ⟨S8388608, .i32⟩
  | .hbm, ⟨61, _⟩ => ⟨S_, .i32⟩
  | .hbm, ⟨62, _⟩ => ⟨S8388608, .i32⟩
  | .hbm, ⟨63, _⟩ => ⟨S8388608, .i32⟩
  | .hbm, ⟨64, _⟩ => ⟨S_, .i32⟩
  | .hbm, ⟨65, _⟩ => ⟨S8388608, .i32⟩
  | .hbm, ⟨66, _⟩ => ⟨S8388608, .i32⟩
  | .hbm, ⟨67, _⟩ => ⟨S_, .i32⟩
  | .hbm, ⟨68, _⟩ => ⟨S8388608, .i32⟩
  | .hbm, ⟨69, _⟩ => ⟨S8388608, .i32⟩
  | .hbm, ⟨70, _⟩ => ⟨S8388608x1, .i32⟩
  | .hbm, ⟨71, _⟩ => ⟨S8388608x1, .i32⟩
  | .hbm, ⟨72, _⟩ => ⟨S8388608x1, .i32⟩
  | .hbm, ⟨73, _⟩ => ⟨S8388608x1, .i32⟩
  | .hbm, ⟨74, _⟩ => ⟨S8388608x1, .i32⟩
  | .hbm, ⟨75, _⟩ => ⟨S8388608x1, .i32⟩
  | .hbm, ⟨76, _⟩ => ⟨S8388608x1, .i32⟩
  | .hbm, ⟨77, _⟩ => ⟨S8388608x1, .i32⟩
  | .hbm, ⟨78, _⟩ => ⟨S8388608x8, .i32⟩
  | .hbm, ⟨79, _⟩ => ⟨S4194304x16, .i32⟩
  | .hbm, ⟨80, _⟩ => ⟨S4194304x16, .f32⟩
  | .hbm, ⟨81, _⟩ => ⟨S_, .f32⟩
  | .hbm, ⟨82, _⟩ => ⟨S4194304x16, .f32⟩
  | .hbm, ⟨83, _⟩ => ⟨S4194304x16, .f32⟩
  | .hbm, ⟨84, _⟩ => ⟨S_, .f32⟩
  | .hbm, ⟨85, _⟩ => ⟨S4194304x16, .f32⟩
  | .hbm, ⟨86, _⟩ => ⟨S4194304x16, .f32⟩
  | .hbm, ⟨87, _⟩ => ⟨S4194304x16, .f32⟩
  | .hbm, ⟨88, _⟩ => ⟨S4194304x16, .f32⟩
  | .hbm, ⟨89, _⟩ => ⟨S4194304x16, .f32⟩
  | .hbm, ⟨90, _⟩ => ⟨S4194304x16, .f32⟩
  | .hbm, ⟨91, _⟩ => ⟨S67108864, .f32⟩
  | .hbm, ⟨92, _⟩ => ⟨S8192x8192, .f32⟩
  | .hbm, ⟨93, _⟩ => ⟨S64x8192, .f32⟩
  | .hbm, ⟨94, _⟩ => ⟨S1x8192, .f32⟩
  | .hbm, ⟨95, _⟩ => ⟨S64x8192, .f32⟩
  | .hbm, ⟨96, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_c_13 : Ref sig .tc := ⟨.hbm, 54, rfl⟩
abbrev main_v36 : Ref sig .tc := ⟨.hbm, 55, rfl⟩
abbrev main_v37 : Ref sig .tc := ⟨.hbm, 56, rfl⟩
abbrev main_c_14 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_15 : Ref sig .tc := ⟨.hbm, 61, rfl⟩
abbrev main_v41 : Ref sig .tc := ⟨.hbm, 62, rfl⟩
abbrev main_v42 : Ref sig .tc := ⟨.hbm, 63, rfl⟩
abbrev main_c_16 : Ref sig .tc := ⟨.hbm, 64, rfl⟩
abbrev main_v43 : Ref sig .tc := ⟨.hbm, 65, rfl⟩
abbrev main_v44 : Ref sig .tc := ⟨.hbm, 66, rfl⟩
abbrev main_c_17 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]

class Facts₀ : Prop where
  shapeCasts_S4194304x6_S8388608x3 : S4194304x6.ShapeCasts S8388608x3
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x1_S8388608x1_S8388608x1_S8388608x1_S8388608x8_d1 : Shape.Concatenates [S8388608x1, S8388608x1, S8388608x1, S8388608x1, S8388608x1, S8388608x1, S8388608x1, S8388608x1] S8388608x8 1
  shapeCasts_S8388608x8_S4194304x16 : S8388608x8.ShapeCasts S4194304x16
  bcast_S_S4194304x16 : S_.BroadcastsInDim S4194304x16 (![] : Fin 0 → Fin S4194304x16.rank)
  bcast_S4194304x1_S4194304x16_0_1 : S4194304x1.BroadcastsInDim S4194304x16 (![0, 1] : Fin 2 → Fin S4194304x16.rank)
  shapeCasts_S4194304x16_S67108864 : S4194304x16.ShapeCasts S67108864
  shapeCasts_S67108864_S8192x8192 : S67108864.ShapeCasts S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_1_0_0_n_n_wf : DotDims.WF S64x8192 S8192x8192 S64x8192 [1] [1] [0] [0] [] []

variable [Facts₀]

def dot_S64x8192_S8192x8192_S64x8192_1_1_0_0_n_n : DotDims S64x8192 S8192x8192 S64x8192 where
  lhsContracting := [1]
  rhsContracting := [1]
  lhsNonContracting := [0]
  rhsNonContracting := [0]
  lhsBatch := []
  rhsBatch := []
  wf := dot_S64x8192_S8192x8192_S64x8192_1_1_0_0_n_n_wf

class Facts : Prop extends Facts₀ where

variable [Facts]
-- ==== Proof.Spec.lean ====
/-
  A linear layer whose weight matrix is stored as 3-bit codes, sixteen to a group, each group with one scale:
  the result array as ONE function of the four argument arrays, in the two arrangements the two programs compute.

  The arguments: `x` [64, 8192]; `q` [4194304, 6], six byte-valued words a group (two halves of three bytes, eight
  codes a half); `wn` [4194304, 1], a group's scale; `b` [8192]. Output feature `o` owns the 512 groups
  `o * 512 + g`, and group `g` of a row covers the sixteen columns `g * 16 + r`.

  `G` is the plain arrangement: the weight at (o, k) is `((c / 7) * 2) * s - s` for the code `c` and the scale `s` of its
  group, and the result at (m, o) is the sum over all 8192 columns of `x * weight`, plus `b o`.
  `K` is the split arrangement: sixteen partial products, one for each position `r` inside a group, of `x` at the columns
  `g * 16 + r` with `c * (s * (2 / 7))`, added left to right from zero; less the product of the per-group sums of `x` with
  the scales; plus `b o`.
-/
import Idealize.ShloMosaic.PureOps.Ideal
import Idealize.ShloMosaic.Lib.ValueIdx

noncomputable section

namespace Cert.Q3

open Idealize.ShloMosaic Idealize.ShloMosaic.ValueIdx

abbrev SX : Shape := ⟨2, ![64, 8192]⟩
abbrev SQ : Shape := ⟨2, ![4194304, 6]⟩
abbrev SN : Shape := ⟨2, ![4194304, 1]⟩
abbrev SB : Shape := ⟨1, ![8192]⟩

/-- The group of output feature `o` that covers its columns `g * 16 … g * 16 + 15`. -/
def grp (o : Fin 8192) (g : Fin 512) : Fin 4194304 := ⟨o.val * 512 + g.val, by omega⟩

/-- Column `r` of group `g` of a row. -/
def col (g : Fin 512) (r : Fin 16) : Fin 8192 := ⟨g.val * 16 + r.val, by omega⟩

/-- The eight 3-bit codes of three bytes `b0 b1 b2` (24 bits, most significant first), each read off the bytes
    it lies in: code `e` is bits `23 - 3e … 21 - 3e` of the 24. -/
def code3 (b0 b1 b2 : BitVec 32) : Fin 8 → BitVec 32
  | 0 => IntOp.andi (IntOp.shrsi .host b0 5#32) 7#32
  | 1 => IntOp.andi (IntOp.shrsi .host b0 2#32) 7#32
  | 2 => IntOp.ori (IntOp.shli .host (IntOp.andi b0 3#32) 1#32) (IntOp.andi (IntOp.shrsi .host b1 7#32) 1#32)
  | 3 => IntOp.andi (IntOp.shrsi .host b1 4#32) 7#32
  | 4 => IntOp.andi (IntOp.shrsi .host b1 1#32) 7#32
  | 5 => IntOp.ori (IntOp.shli .host (IntOp.andi b1 1#32) 2#32) (IntOp.andi (IntOp.shrsi .host b2 6#32) 3#32)
  | 6 => IntOp.andi (IntOp.shrsi .host b2 3#32) 7#32
  | 7 => IntOp.andi b2 7#32

/-- The three bytes' low eight bits laid side by side in one word: `b0` at bits 23…16, `b1` at 15…8, `b2` at 7…0. -/
def pack3 (b0 b1 b2 : BitVec 32) : BitVec 32 :=
  IntOp.ori (IntOp.ori (IntOp.shli .host (IntOp.andi b0 255#32) 16#32) (IntOp.shli .host (IntOp.andi b1 255#32) 8#32)) (IntOp.andi b2 255#32)

/-- Three bits of a word from bit `sh` up. -/
def field (w sh : BitVec 32) : BitVec 32 := IntOp.andi (IntOp.shrsi .vector w sh) 7#32

/-- Byte `a` of half `h` of group `n`. -/
def byte (q : IVec SQ 32) (n : Fin 4194304) (h : Fin 2) (a : Fin 3) : BitVec 32 :=
  q (ix2 n ⟨3 * h.val + a.val, by omega⟩)

/-- The code at position `r` of group `n`: code `r % 8` of half `r / 8`. -/
def code (q : IVec SQ 32) (n : Fin 4194304) (r : Fin 16) : BitVec 32 :=
  code3 (byte q n ⟨r.val / 8, by omega⟩ 0) (byte q n ⟨r.val / 8, by omega⟩ 1) (byte q n ⟨r.val / 8, by omega⟩ 2) ⟨r.val % 8, by omega⟩

/-- The code as a number. -/
def num (q : IVec SQ 32) (n : Fin 4194304) (r : Fin 16) : EReal := (((code q n r).toInt : ℝ) : EReal)

/-- A group's scale. -/
def scale (wn : FVec Ideal SN .f32) (n : Fin 4194304) : EReal := wn (ix2 n 0)

/-- The dequantised weight at output feature `o`, column `k`: `((c / 7) * 2) * s - s`. -/
def weight (q : IVec SQ 32) (wn : FVec Ideal SN .f32) (o k : Fin 8192) : EReal :=
  Ideal.div (num q (grp o ⟨k.val / 16, by omega⟩) ⟨k.val % 16, by omega⟩) (Ideal.ofBits .f32 0x40E00000#32) * Ideal.ofBits .f32 0x40000000#32
      * scale wn (grp o ⟨k.val / 16, by omega⟩)
    - scale wn (grp o ⟨k.val / 16, by omega⟩)

/-- THE PLAIN ARRANGEMENT: `x` times the transposed dequantised weights, plus the bias. -/
def G (x : FVec Ideal SX .f32) (q : IVec SQ 32) (wn : FVec Ideal SN .f32) (b : FVec Ideal SB .f32) : FVec Ideal SX .f32 :=
  fun i => (∑ k : Fin 8192, x (ix2 (i 0) k) * weight q wn (i 1) k) + b (ix1 (i 1))

/-- Position `r`'s partial product at (m, o): over the groups, `x` at the group's column `r` times `c * (s * (2 / 7))`. -/
def part (x : FVec Ideal SX .f32) (q : IVec SQ 32) (wn : FVec Ideal SN .f32) (m : Fin 64) (o : Fin 8192) (r : Fin 16) : EReal :=
  ∑ g : Fin 512, x (ix2 m (col g r)) * (num q (grp o g) r * (scale wn (grp o g) * ((2 / 7 : ℝ) : EReal)))

/-- The per-group sums of `x` against the scales, at (m, o). -/
def corr (x : FVec Ideal SX .f32) (wn : FVec Ideal SN .f32) (m : Fin 64) (o : Fin 8192) : EReal :=
  ∑ g : Fin 512, (0 + ∑ r : Fin 16, x (ix2 m (col g r))) * scale wn (grp o g)

/-- THE SPLIT ARRANGEMENT. -/
def K (x : FVec Ideal SX .f32) (q : IVec SQ 32) (wn : FVec Ideal SN .f32) (b : FVec Ideal SB .f32) : FVec Ideal SX .f32 :=
  fun i =>
    ((0 + part x q wn (i 0) (i 1) 0 + part x q wn (i 0) (i 1) 1 + part x q wn (i 0) (i 1) 2 + part x q wn (i 0) (i 1) 3
        + part x q wn (i 0) (i 1) 4 + part x q wn (i 0) (i 1) 5 + part x q wn (i 0) (i 1) 6 + part x q wn (i 0) (i 1) 7
        + part x q wn (i 0) (i 1) 8 + part x q wn (i 0) (i 1) 9 + part x q wn (i 0) (i 1) 10 + part x q wn (i 0) (i 1) 11
        + part x q wn (i 0) (i 1) 12 + part x q wn (i 0) (i 1) 13 + part x q wn (i 0) (i 1) 14 + part x q wn (i 0) (i 1) 15)
      - corr x wn (i 0) (i 1))
    + b (ix1 (i 1))

end Cert.Q3

end
-- ==== Proof.Bits.lean ====
/-
  The packed word and the bytes agree on every code. Three bytes' low eight bits laid side by side make a 24-bit word
  whose bits `23 - 3e … 21 - 3e` are the `e`-th 3-bit code; reading those three bits off the word (shift right by
  `21 - 3e`, keep three bits) and reading them off the bytes they lie in (`code3`: a shift and a mask of one byte, or for
  the two codes that straddle a byte boundary two bits of one byte joined to one bit of the next) give the same word,
  for ALL 32-bit words `b0 b1 b2`: neither reading looks above a byte's bit 7. Each identity is checked bit by bit.
-/
import proofs.«420909_j51402168599335_3_alg».proof.Proof.Spec
import Mathlib.Tactic.IntervalCases

namespace Cert.Q3

open Idealize.ShloMosaic

/-- Every shift amount in sight is a literal below the width, so each shift is the plain one; then the two words are
    compared at each of their 32 bits. -/
local macro "bitwise_cases" : tactic => `(tactic| (
  unfold field pack3 code3 IntOp.andi IntOp.ori IntOp.shli IntOp.shrsi
  simp only [show (0#32 : BitVec 32).toNat < 32 from by decide, show (1#32 : BitVec 32).toNat < 32 from by decide,
    show (2#32 : BitVec 32).toNat < 32 from by decide, show (3#32 : BitVec 32).toNat < 32 from by decide,
    show (4#32 : BitVec 32).toNat < 32 from by decide, show (5#32 : BitVec 32).toNat < 32 from by decide,
    show (6#32 : BitVec 32).toNat < 32 from by decide, show (7#32 : BitVec 32).toNat < 32 from by decide,
    show (8#32 : BitVec 32).toNat < 32 from by decide, show (9#32 : BitVec 32).toNat < 32 from by decide,
    show (12#32 : BitVec 32).toNat < 32 from by decide, show (15#32 : BitVec 32).toNat < 32 from by decide,
    show (16#32 : BitVec 32).toNat < 32 from by decide, show (18#32 : BitVec 32).toNat < 32 from by decide,
    show (21#32 : BitVec 32).toNat < 32 from by decide, if_true]
  apply BitVec.eq_of_getLsbD_eq
  intro i hi
  interval_cases i <;>
    simp [BitVec.getLsbD_sshiftRight, BitVec.getElem_sshiftRight, BitVec.msb_eq_getLsbD_last, BitVec.sshiftRight',
      BitVec.getElem_shiftLeft, BitVec.getLsbD_shiftLeft]))

theorem field_pack3_0 (b0 b1 b2 : BitVec 32) : field (pack3 b0 b1 b2) 21#32 = code3 b0 b1 b2 0 := by bitwise_cases
theorem field_pack3_1 (b0 b1 b2 : BitVec 32) : field (pack3 b0 b1 b2) 18#32 = code3 b0 b1 b2 1 := by bitwise_cases
theorem field_pack3_2 (b0 b1 b2 : BitVec 32) : field (pack3 b0 b1 b2) 15#32 = code3 b0 b1 b2 2 := by bitwise_cases
theorem field_pack3_3 (b0 b1 b2 : BitVec 32) : field (pack3 b0 b1 b2) 12#32 = code3 b0 b1 b2 3 := by bitwise_cases
theorem field_pack3_4 (b0 b1 b2 : BitVec 32) : field (pack3 b0 b1 b2) 9#32 = code3 b0 b1 b2 4 := by bitwise_cases
theorem field_pack3_5 (b0 b1 b2 : BitVec 32) : field (pack3 b0 b1 b2) 6#32 = code3 b0 b1 b2 5 := by bitwise_cases
theorem field_pack3_6 (b0 b1 b2 : BitVec 32) : field (pack3 b0 b1 b2) 3#32 = code3 b0 b1 b2 6 := by bitwise_cases
theorem field_pack3_7 (b0 b1 b2 : BitVec 32) : field (pack3 b0 b1 b2) 0#32 = code3 b0 b1 b2 7 := by bitwise_cases

end Cert.Q3
-- ==== Proof.Algebra.lean ====
/-
  The algebraic law that joins the two arrangements of the 3-bit-code linear layer: `K = G` wherever `x` and the
  scales are real.

  With `x` and the scales real every quantity is the coercion of a real number, so the coercion moves outward through
  products, sums and differences, and what is left is an identity of real numbers. Writing `X g r` for `x` at column
  `g * 16 + r`, `C g r` for the code there and `S g` for the group's scale:

    Σ_r Σ_g X g r * (C g r * (S g * (2 / 7)))  -  Σ_g (Σ_r X g r) * S g  =  Σ_g Σ_r X g r * (C g r * (1 / 7) * 2 * S g - S g),

  which holds term by term once the two sums on the left are exchanged and the product with `S g` is distributed. The sum
  over the 8192 columns `k` is this double sum because `k = g * 16 + r` with `g = k / 16`, `r = k % 16` is a bijection;
  the sixteen partial products added left to right from zero are the sum over `r`; the two float words are `7` and `2`;
  division by the real `7` is the product with `1 / 7`. The bias `b` is added to both sides unchanged, so it need not be real.
-/
import proofs.«420909_j51402168599335_3_alg».proof.Proof.Spec
import Mathlib.Algebra.BigOperators.Fin
import Mathlib.Algebra.BigOperators.Ring.Finset
import Mathlib.Data.Fin.Tuple.Reflection
import Mathlib.Data.EReal.Basic
import Mathlib.Data.EReal.Operations
import Mathlib.Tactic.Ring
import Mathlib.Logic.Equiv.Fin.Basic
import Mathlib.Data.Fintype.BigOperators
import Mathlib.Tactic.NormNum

noncomputable section

namespace Cert.Q3

open Idealize.ShloMosaic Idealize.ShloMosaic.ValueIdx

/-- The word `0x40E00000` denotes the real `7` (sign 0, exponent 129, significand `1.75`). -/
theorem ofBits_seven : Ideal.ofBits .f32 0x40E00000#32 = ((7 : ℝ) : EReal) := by
  simp [Ideal.ofBits, Ideal.ieee, -EReal.coe_mul]; norm_num

/-- The word `0x40000000` denotes the real `2` (sign 0, exponent 128, significand `1`). -/
theorem ofBits_two : Ideal.ofBits .f32 0x40000000#32 = ((2 : ℝ) : EReal) := by
  simp [Ideal.ofBits, Ideal.ieee, -EReal.coe_mul]; norm_num

/-- The coercion of a finite sum of reals is the sum of the coercions: induction on the index set, each step `EReal.coe_add`. -/
theorem coe_sum {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- Sixteen terms added left to right from zero are the sum over `Fin 16`. -/
theorem sum16 (f : Fin 16 → ℝ) :
    0 + f 0 + f 1 + f 2 + f 3 + f 4 + f 5 + f 6 + f 7 + f 8 + f 9 + f 10 + f 11 + f 12 + f 13 + f 14 + f 15
      = ∑ r, f r := by
  simp only [Fin.sum_univ_ofNat]
  ring

/-- The identity of real numbers behind the two arrangements: exchange the sums over positions and groups, distribute the
    product with the scale over the group's sum, and compare term by term:
    `X * (C * (S * (2 / 7))) - X * S = X * (C * (1 / 7) * 2 * S - S)`. -/
theorem real_identity (X C : Fin 512 → Fin 16 → ℝ) (S : Fin 512 → ℝ) :
    (∑ r, ∑ g, X g r * (C g r * (S g * (2 / 7)))) - ∑ g, (0 + ∑ r, X g r) * S g
      = ∑ g, ∑ r, X g r * (C g r * (1 / 7) * 2 * S g - S g) := by
  rw [Finset.sum_comm, ← Finset.sum_sub_distrib]
  refine Finset.sum_congr rfl fun g _ => ?_
  rw [zero_add, Finset.sum_mul, ← Finset.sum_sub_distrib]
  refine Finset.sum_congr rfl fun r _ => ?_
  ring

/-- The columns are the pairs (group, position): `k = g * 16 + r`. -/
def colEquiv : Fin 512 × Fin 16 ≃ Fin 8192 where
  toFun p := col p.1 p.2
  invFun k := (⟨k.val / 16, by omega⟩, ⟨k.val % 16, by omega⟩)
  left_inv := by
    rintro ⟨g, r⟩
    refine Prod.ext (Fin.ext ?_) (Fin.ext ?_)
    · show (g.val * 16 + r.val) / 16 = g.val
      omega
    · show (g.val * 16 + r.val) % 16 = r.val
      omega
  right_inv := by
    intro k
    refine Fin.ext ?_
    show k.val / 16 * 16 + k.val % 16 = k.val
    omega

/-- A sum over the 8192 columns is the double sum over groups and positions. -/
theorem sum_col {M : Type*} [AddCommMonoid M] (F : Fin 8192 → M) :
    ∑ k, F k = ∑ g, ∑ r, F (col g r) := by
  rw [← Equiv.sum_comp colEquiv F, Fintype.sum_prod_type]
  rfl

/-- The group of column `g * 16 + r` is `g`, since `r < 16`. -/
theorem col_div (g : Fin 512) (r : Fin 16) (h : (col g r).val / 16 < 512) :
    (⟨(col g r).val / 16, h⟩ : Fin 512) = g := by
  refine Fin.ext ?_
  show (g.val * 16 + r.val) / 16 = g.val
  omega

/-- The position of column `g * 16 + r` is `r`, since `r < 16`. -/
theorem col_mod (g : Fin 512) (r : Fin 16) (h : (col g r).val % 16 < 16) :
    (⟨(col g r).val % 16, h⟩ : Fin 16) = r := by
  refine Fin.ext ?_
  show (g.val * 16 + r.val) % 16 = r.val
  omega

/-- The code at position `r` of group `g` of output feature `o`, as a real number. -/
def cR (q : IVec SQ 32) (o : Fin 8192) (g : Fin 512) (r : Fin 16) : ℝ := ((code q (grp o g) r).toInt : ℝ)

/-- With real scales the weight at column `g * 16 + r` is the coercion of the real `c * (1 / 7) * 2 * s - s`:
    the group and position of that column are `g` and `r`, the two words are `7` and `2`, and division by `7` is the product
    with `1 / 7`. -/
theorem weight_real (q : IVec SQ 32) (wr : SN.Idx → ℝ) (o : Fin 8192) (g : Fin 512) (r : Fin 16) :
    weight q (fun i => (wr i : EReal)) o (col g r)
      = ((cR q o g r * (1 / 7) * 2 * wr (ix2 (grp o g) 0) - wr (ix2 (grp o g) 0) : ℝ) : EReal) := by
  unfold weight
  rw [col_div, col_mod, ofBits_seven, ofBits_two, Ideal.div_coe (by norm_num : (7 : ℝ) ≠ 0)]
  simp only [num, scale, cR, EReal.coe_mul, EReal.coe_sub]

/-- With real `x` and scales a partial product is the coercion of the same sum of real products. -/
theorem part_real (xr : SX.Idx → ℝ) (q : IVec SQ 32) (wr : SN.Idx → ℝ) (m : Fin 64) (o : Fin 8192) (r : Fin 16) :
    part (fun i => (xr i : EReal)) q (fun i => (wr i : EReal)) m o r
      = ((∑ g, xr (ix2 m (col g r)) * (cR q o g r * (wr (ix2 (grp o g) 0) * (2 / 7))) : ℝ) : EReal) := by
  simp only [part, num, scale, cR, coe_sum, EReal.coe_mul]

/-- With real `x` and scales the correction term is the coercion of the same sum of real products. -/
theorem corr_real (xr : SX.Idx → ℝ) (wr : SN.Idx → ℝ) (m : Fin 64) (o : Fin 8192) :
    corr (fun i => (xr i : EReal)) (fun i => (wr i : EReal)) m o
      = ((∑ g, (0 + ∑ r, xr (ix2 m (col g r))) * wr (ix2 (grp o g) 0) : ℝ) : EReal) := by
  simp only [corr, scale, coe_sum, EReal.coe_mul, EReal.coe_add, EReal.coe_zero]

/-- The plain arrangement at the index `(m, o)`. -/
theorem G_apply (x : FVec Ideal SX .f32) (q : IVec SQ 32) (wn : FVec Ideal SN .f32) (b : FVec Ideal SB .f32)
    (m : Fin 64) (o : Fin 8192) :
    G x q wn b (ix2 m o) = (∑ k : Fin 8192, x (ix2 m k) * weight q wn o k) + b (ix1 o) := rfl

/-- The split arrangement at the index `(m, o)`. -/
theorem K_apply (x : FVec Ideal SX .f32) (q : IVec SQ 32) (wn : FVec Ideal SN .f32) (b : FVec Ideal SB .f32)
    (m : Fin 64) (o : Fin 8192) :
    K x q wn b (ix2 m o)
      = ((0 + part x q wn m o 0 + part x q wn m o 1 + part x q wn m o 2 + part x q wn m o 3
          + part x q wn m o 4 + part x q wn m o 5 + part x q wn m o 6 + part x q wn m o 7
          + part x q wn m o 8 + part x q wn m o 9 + part x q wn m o 10 + part x q wn m o 11
          + part x q wn m o 12 + part x q wn m o 13 + part x q wn m o 14 + part x q wn m o 15)
        - corr x wn m o) + b (ix1 o) := rfl

/-- With real `x` and scales the plain arrangement at `(m, o)` is the coercion of a real double sum over groups and
    positions, plus the bias. -/
theorem G_real (xr : SX.Idx → ℝ) (q : IVec SQ 32) (wr : SN.Idx → ℝ) (b : FVec Ideal SB .f32) (m : Fin 64) (o : Fin 8192) :
    G (fun i => (xr i : EReal)) q (fun i => (wr i : EReal)) b (ix2 m o)
      = ((∑ g, ∑ r, xr (ix2 m (col g r)) * (cR q o g r * (1 / 7) * 2 * wr (ix2 (grp o g) 0) - wr (ix2 (grp o g) 0)) : ℝ) : EReal)
        + b (ix1 o) := by
  rw [G_apply, sum_col]
  simp only [weight_real, coe_sum, EReal.coe_mul]

/-- With real `x` and scales the split arrangement at `(m, o)` is the coercion of the real sum over positions of the partial
    products less the real correction, plus the bias. -/
theorem K_real (xr : SX.Idx → ℝ) (q : IVec SQ 32) (wr : SN.Idx → ℝ) (b : FVec Ideal SB .f32) (m : Fin 64) (o : Fin 8192) :
    K (fun i => (xr i : EReal)) q (fun i => (wr i : EReal)) b (ix2 m o)
      = (((∑ r, ∑ g, xr (ix2 m (col g r)) * (cR q o g r * (wr (ix2 (grp o g) 0) * (2 / 7))))
            - ∑ g, (0 + ∑ r, xr (ix2 m (col g r))) * wr (ix2 (grp o g) 0) : ℝ) : EReal)
        + b (ix1 o) := by
  rw [K_apply]
  simp only [part_real, corr_real]
  rw [← sum16 (fun r => ∑ g, xr (ix2 m (col g r)) * (cR q o g r * (wr (ix2 (grp o g) 0) * (2 / 7))))]
  simp only [EReal.coe_add, EReal.coe_sub, EReal.coe_zero]

/-- The two arrangements agree wherever `x` and the scales are real. -/
theorem K_eq_G (x : FVec Ideal SX .f32) (q : IVec SQ 32) (wn : FVec Ideal SN .f32) (b : FVec Ideal SB .f32)
    (hx : ∀ i, ∃ r : ℝ, x i = (r : EReal)) (hw : ∀ i, ∃ r : ℝ, wn i = (r : EReal)) :
    K x q wn b = G x q wn b := by
  choose xr hxr using hx
  choose wr hwr using hw
  obtain rfl : x = fun i => (xr i : EReal) := funext hxr
  obtain rfl : wn = fun i => (wr i : EReal) := funext hwr
  funext i
  obtain ⟨m, o, rfl⟩ : ∃ (m : Fin 64) (o : Fin 8192), i = ix2 m o := ⟨i 0, i 1, eq_ix2 i⟩
  rw [K_real, G_real, real_identity]

end Cert.Q3

end
-- ==== Proof.Finite.lean ====
/-
  What the precondition gives: every entry of the three float arguments is a real number.

  The precondition is the conjunction of three statements `all (|x| < +∞)`, one for each float argument. Each is a
  reduction by `and` over every axis of the array of entrywise comparisons `|x i| < +∞`, started from 1, so when the
  conjunction is 1 every comparison is 1. On the extended reals `|a|` is `max a (-a)`, which is `⊤` at both `⊥` and
  `⊤`, and `⊤ < ⊤` is false; so an entry whose comparison is 1 is neither `⊥` nor `⊤`: it is a real.
-/
import proofs.«420909_j51402168599335_3_alg».proof.Pre_finite_inputs
import proofs.«420909_j51402168599335_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

namespace Cert.Q3

open Idealize.ShloMosaic Idealize.ShloMosaic.ValueIdx

/-- The rank-0 shape has one index: two of its indices are functions out of the empty type. -/
instance subsingleton_S_Idx : Subsingleton Cert.Pre_finite_inputs.S_.Idx := ⟨fun a b => funext fun d => d.elim0⟩

/-- The word `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` is strictly below `+∞` is a real: at `⊥` and at `⊤` the
    absolute value is `⊤`, which is not below itself. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- The precondition, read back: every entry of `x0`, of `x2` and of `x3` is a real. The value at the one index is
    the `and` of three reductions by `and`; each being 1, every entrywise comparison `|x i| < +∞` is 1, and the
    element lemma applies. -/
theorem finite_of_pre [Cert.Pre_finite_inputs.Facts]
    (x0 : FVec Ideal Cert.Pre_finite_inputs.S64x8192 .f32) (x1 : IVec Cert.Pre_finite_inputs.S4194304x6 32)
    (x2 : FVec Ideal Cert.Pre_finite_inputs.S4194304x1 .f32) (x3 : FVec Ideal Cert.Pre_finite_inputs.S8192 .f32)
    (h : Cert.Pre_finite_inputs.fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn] at h0
  obtain ⟨h02, h3⟩ := IntOp.andi_eq_one.1 h0
  obtain ⟨h0', h2⟩ := IntOp.andi_eq_one.1 h02
  exact ⟨fun i => real_of_abs_lt_inf (x0 i) (Host.reduce_andi_all _ _ _ _ _ h0' i),
    fun i => real_of_abs_lt_inf (x2 i) (Host.reduce_andi_all _ _ _ _ _ h2 i),
    fun i => real_of_abs_lt_inf (x3 i) (Host.reduce_andi_all _ _ _ _ _ h3 i)⟩

end Cert.Q3

end
-- ==== Proof.RefValue.lean ====
/-
  The reference program's result, read at an index, is the plain arrangement `G`.

  The reference views the bytes [4194304, 6] as [8388608, 3]: row `2 n + h` holds the three bytes of half `h` of group `n`
  (flat position `(2 n + h) * 3 + a = 6 n + (3 h + a)`). From each row it cuts eight 3-bit codes with shifts, masks and
  ors, stacks them on a new last axis, [8388608, 8], and regroups them sixteen to a group, [4194304, 16]: entry `(n, r)`
  is flat position `16 n + r = 8 (2 n + r / 8) + r % 8`, code `r % 8` of row `2 n + r / 8`. As numbers the codes are
  divided by 7, doubled, multiplied by the group's scale and lessened by it. Read flat as [8192, 8192], the entry at
  `(o, k)` is flat position `8192 o + k = 16 (512 o + k / 16) + k % 16`: group `512 o + k / 16`, position `k % 16`.
  The result is `x` contracted with that matrix over the columns of both, plus the bias along the rows.
-/
import proofs.«420909_j51402168599335_3_alg».proof.Proof.Spec
import proofs.«420909_j51402168599335_3_alg».proof.Proof.Gen.ReferenceIdeal.Read
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo

/-- Row `2 n + h` of the [8388608, 3] view of the bytes: half `h` of group `n`. -/
def row (n : Fin 4194304) (h : Fin 2) : Fin 8388608 := ⟨2 * n.val + h.val, by omega⟩

/-- Column 0 of the [8388608, 3] view at row `2 n + h` is byte 0 of half `h` of group `n`:
    flat position `(2 n + h) * 3 + 0 = 6 n + 3 h` is entry `(n, 3 h)` of the [4194304, 6] array. -/
theorem byte0 (x1 : IVec S4194304x6 32) (n : Fin 4194304) (h : Fin 2) :
    val_main_v2 (F := Ideal) x1 (ix1 (row n h)) = Cert.Q3.byte x1 n h 0 := by
  rw [val_main_v2_apply, val_main_v1_apply, val_main_v0_apply]
  unfold Cert.Q3.byte
  refine congrArg x1 (funext fun a => Fin.ext ?_)
  have hh : h.val < 2 := h.isLt
  match a with
  | ⟨0, _⟩ =>
    show ((2 * n.val + h.val) / 1 * 3 + 0) / 6 = n.val
    omega
  | ⟨1, _⟩ =>
    show ((2 * n.val + h.val) / 1 * 3 + 0) % 6 = 3 * h.val + 0
    omega

/-- Column 1 at row `2 n + h` is byte 1 of the half: flat position `6 n + 3 h + 1`. -/
theorem byte1 (x1 : IVec S4194304x6 32) (n : Fin 4194304) (h : Fin 2) :
    val_main_v4 (F := Ideal) x1 (ix1 (row n h)) = Cert.Q3.byte x1 n h 1 := by
  rw [val_main_v4_apply, val_main_v3_apply, val_main_v0_apply]
  unfold Cert.Q3.byte
  refine congrArg x1 (funext fun a => Fin.ext ?_)
  have hh : h.val < 2 := h.isLt
  match a with
  | ⟨0, _⟩ =>
    show ((2 * n.val + h.val) / 1 * 3 + (1 + 0)) / 6 = n.val
    omega
  | ⟨1, _⟩ =>
    show ((2 * n.val + h.val) / 1 * 3 + (1 + 0)) % 6 = 3 * h.val + 1
    omega

/-- Column 2 at row `2 n + h` is byte 2 of the half: flat position `6 n + 3 h + 2`. -/
theorem byte2 (x1 : IVec S4194304x6 32) (n : Fin 4194304) (h : Fin 2) :
    val_main_v6 (F := Ideal) x1 (ix1 (row n h)) = Cert.Q3.byte x1 n h 2 := by
  rw [val_main_v6_apply, val_main_v5_apply, val_main_v0_apply]
  unfold Cert.Q3.byte
  refine congrArg x1 (funext fun a => Fin.ext ?_)
  have hh : h.val < 2 := h.isLt
  match a with
  | ⟨0, _⟩ =>
    show ((2 * n.val + h.val) / 1 * 3 + (2 + 0)) / 6 = n.val
    omega
  | ⟨1, _⟩ =>
    show ((2 * n.val + h.val) / 1 * 3 + (2 + 0)) % 6 = 3 * h.val + 2
    omega

/-- Code 0 of a row: bits 7…5 of byte 0. -/
theorem code_0 (x1 : IVec S4194304x6 32) (n : Fin 4194304) (h : Fin 2) :
    val_main_v10 (F := Ideal) x1 (ix1 (row n h))
      = Cert.Q3.code3 (Cert.Q3.byte x1 n h 0) (Cert.Q3.byte x1 n h 1) (Cert.Q3.byte x1 n h 2) 0 := by
  rw [val_main_v10_apply, val_main_v8_apply, val_main_v9_apply, val_main_c_0_apply, val_main_v7_apply,
    val_main_c_apply, byte0]
  rfl

/-- Code 1 of a row: bits 4…2 of byte 0. -/
theorem code_1 (x1 : IVec S4194304x6 32) (n : Fin 4194304) (h : Fin 2) :
    val_main_v14 (F := Ideal) x1 (ix1 (row n h))
      = Cert.Q3.code3 (Cert.Q3.byte x1 n h 0) (Cert.Q3.byte x1 n h 1) (Cert.Q3.byte x1 n h 2) 1 := by
  rw [val_main_v14_apply, val_main_v12_apply, val_main_v13_apply, val_main_c_2_apply, val_main_v11_apply,
    val_main_c_1_apply, byte0]
  rfl

/-- Code 2 of a row: bits 1…0 of byte 0 above bit 7 of byte 1. -/
theorem code_2 (x1 : IVec S4194304x6 32) (n : Fin 4194304) (h : Fin 2) :
    val_main_v23 (F := Ideal) x1 (ix1 (row n h))
      = Cert.Q3.code3 (Cert.Q3.byte x1 n h 0) (Cert.Q3.byte x1 n h 1) (Cert.Q3.byte x1 n h 2) 2 := by
  rw [val_main_v23_apply, val_main_v18_apply, val_main_v16_apply, val_main_v15_apply, val_main_c_3_apply,
    val_main_v17_apply, val_main_c_4_apply, val_main_v22_apply, val_main_v20_apply, val_main_v19_apply,
    val_main_c_5_apply, val_main_v21_apply, val_main_c_6_apply, byte0, byte1]
  rfl

/-- Code 3 of a row: bits 6…4 of byte 1. -/
theorem code_3 (x1 : IVec S4194304x6 32) (n : Fin 4194304) (h : Fin 2) :
    val_main_v27 (F := Ideal) x1 (ix1 (row n h))
      = Cert.Q3.code3 (Cert.Q3.byte x1 n h 0) (Cert.Q3.byte x1 n h 1) (Cert.Q3.byte x1 n h 2) 3 := by
  rw [val_main_v27_apply, val_main_v25_apply, val_main_v26_apply, val_main_c_8_apply, val_main_v24_apply,
    val_main_c_7_apply, byte1]
  rfl

/-- Code 4 of a row: bits 3…1 of byte 1. -/
theorem code_4 (x1 : IVec S4194304x6 32) (n : Fin 4194304) (h : Fin 2) :
    val_main_v31 (F := Ideal) x1 (ix1 (row n h))
      = Cert.Q3.code3 (Cert.Q3.byte x1 n h 0) (Cert.Q3.byte x1 n h 1) (Cert.Q3.byte x1 n h 2) 4 := by
  rw [val_main_v31_apply, val_main_v29_apply, val_main_v30_apply, val_main_c_10_apply, val_main_v28_apply,
    val_main_c_9_apply, byte1]
  rfl

/-- Code 5 of a row: bit 0 of byte 1 above bits 7…6 of byte 2. -/
theorem code_5 (x1 : IVec S4194304x6 32) (n : Fin 4194304) (h : Fin 2) :
    val_main_v40 (F := Ideal) x1 (ix1 (row n h))
      = Cert.Q3.code3 (Cert.Q3.byte x1 n h 0) (Cert.Q3.byte x1 n h 1) (Cert.Q3.byte x1 n h 2) 5 := by
  rw [val_main_v40_apply, val_main_v35_apply, val_main_v33_apply, val_main_v32_apply, val_main_c_11_apply,
    val_main_v34_apply, val_main_c_12_apply, val_main_v39_apply, val_main_v37_apply, val_main_v36_apply,
    val_main_c_13_apply, val_main_v38_apply, val_main_c_14_apply, byte1, byte2]
  rfl

/-- Code 6 of a row: bits 5…3 of byte 2. -/
theorem code_6 (x1 : IVec S4194304x6 32) (n : Fin 4194304) (h : Fin 2) :
    val_main_v44 (F := Ideal) x1 (ix1 (row n h))
      = Cert.Q3.code3 (Cert.Q3.byte x1 n h 0) (Cert.Q3.byte x1 n h 1) (Cert.Q3.byte x1 n h 2) 6 := by
  rw [val_main_v44_apply, val_main_v42_apply, val_main_v43_apply, val_main_c_16_apply, val_main_v41_apply,
    val_main_c_15_apply, byte2]
  rfl

/-- Code 7 of a row: bits 2…0 of byte 2. -/
theorem code_7 (x1 : IVec S4194304x6 32) (n : Fin 4194304) (h : Fin 2) :
    val_main_v46 (F := Ideal) x1 (ix1 (row n h))
      = Cert.Q3.code3 (Cert.Q3.byte x1 n h 0) (Cert.Q3.byte x1 n h 1) (Cert.Q3.byte x1 n h 2) 7 := by
  rw [val_main_v46_apply, val_main_v45_apply, val_main_c_17_apply, byte2]
  rfl

/-- The stacked codes at last coordinate 0 are piece 0 of the concatenation (the pieces before it fill 0 of the axis). -/
theorem v55_at0 (x1 : IVec S4194304x6 32) (j : Fin 8388608) :
    val_main_v55 (F := Ideal) x1 (ix2 j (0 : Fin 8)) = val_main_v47 (F := Ideal) x1 (ix2 j (0 : Fin 1)) := by
  unfold val_main_v55
  refine concatenate_apply_piece (1 : Fin S8388608x8.rank) _ _ (ix2 j (0 : Fin 8)) 0 (by show (0 : Nat) < 8; decide) S8388608x1
    (val_main_v47 (F := Ideal) x1) rfl rfl 0 rfl (ix2 j (0 : Fin 1)) ?_ ?_
  · intro b hb
    match b with
    | ⟨0, _⟩ => rfl
    | ⟨1, _⟩ => exact absurd rfl hb
  · rfl

/-- The stacked codes at last coordinate 1 are piece 1 of the concatenation (the pieces before it fill 1 of the axis). -/
theorem v55_at1 (x1 : IVec S4194304x6 32) (j : Fin 8388608) :
    val_main_v55 (F := Ideal) x1 (ix2 j (1 : Fin 8)) = val_main_v48 (F := Ideal) x1 (ix2 j (0 : Fin 1)) := by
  unfold val_main_v55
  refine concatenate_apply_piece (1 : Fin S8388608x8.rank) _ _ (ix2 j (1 : Fin 8)) 1 (by show (1 : Nat) < 8; decide) S8388608x1
    (val_main_v48 (F := Ideal) x1) rfl rfl 1 rfl (ix2 j (0 : Fin 1)) ?_ ?_
  · intro b hb
    match b with
    | ⟨0, _⟩ => rfl
    | ⟨1, _⟩ => exact absurd rfl hb
  · rfl

/-- The stacked codes at last coordinate 2 are piece 2 of the concatenation (the pieces before it fill 2 of the axis). -/
theorem v55_at2 (x1 : IVec S4194304x6 32) (j : Fin 8388608) :
    val_main_v55 (F := Ideal) x1 (ix2 j (2 : Fin 8)) = val_main_v49 (F := Ideal) x1 (ix2 j (0 : Fin 1)) := by
  unfold val_main_v55
  refine concatenate_apply_piece (1 : Fin S8388608x8.rank) _ _ (ix2 j (2 : Fin 8)) 2 (by show (2 : Nat) < 8; decide) S8388608x1
    (val_main_v49 (F := Ideal) x1) rfl rfl 2 rfl (ix2 j (0 : Fin 1)) ?_ ?_
  · intro b hb
    match b with
    | ⟨0, _⟩ => rfl
    | ⟨1, _⟩ => exact absurd rfl hb
  · rfl

/-- The stacked codes at last coordinate 3 are piece 3 of the concatenation (the pieces before it fill 3 of the axis). -/
theorem v55_at3 (x1 : IVec S4194304x6 32) (j : Fin 8388608) :
    val_main_v55 (F := Ideal) x1 (ix2 j (3 : Fin 8)) = val_main_v50 (F := Ideal) x1 (ix2 j (0 : Fin 1)) := by
  unfold val_main_v55
  refine concatenate_apply_piece (1 : Fin S8388608x8.rank) _ _ (ix2 j (3 : Fin 8)) 3 (by show (3 : Nat) < 8; decide) S8388608x1
    (val_main_v50 (F := Ideal) x1) rfl rfl 3 rfl (ix2 j (0 : Fin 1)) ?_ ?_
  · intro b hb
    match b with
    | ⟨0, _⟩ => rfl
    | ⟨1, _⟩ => exact absurd rfl hb
  · rfl

/-- The stacked codes at last coordinate 4 are piece 4 of the concatenation (the pieces before it fill 4 of the axis). -/
theorem v55_at4 (x1 : IVec S4194304x6 32) (j : Fin 8388608) :
    val_main_v55 (F := Ideal) x1 (ix2 j (4 : Fin 8)) = val_main_v51 (F := Ideal) x1 (ix2 j (0 : Fin 1)) := by
  unfold val_main_v55
  refine concatenate_apply_piece (1 : Fin S8388608x8.rank) _ _ (ix2 j (4 : Fin 8)) 4 (by show (4 : Nat) < 8; decide) S8388608x1
    (val_main_v51 (F := Ideal) x1) rfl rfl 4 rfl (ix2 j (0 : Fin 1)) ?_ ?_
  · intro b hb
    match b with
    | ⟨0, _⟩ => rfl
    | ⟨1, _⟩ => exact absurd rfl hb
  · rfl

/-- The stacked codes at last coordinate 5 are piece 5 of the concatenation (the pieces before it fill 5 of the axis). -/
theorem v55_at5 (x1 : IVec S4194304x6 32) (j : Fin 8388608) :
    val_main_v55 (F := Ideal) x1 (ix2 j (5 : Fin 8)) = val_main_v52 (F := Ideal) x1 (ix2 j (0 : Fin 1)) := by
  unfold val_main_v55
  refine concatenate_apply_piece (1 : Fin S8388608x8.rank) _ _ (ix2 j (5 : Fin 8)) 5 (by show (5 : Nat) < 8; decide) S8388608x1
    (val_main_v52 (F := Ideal) x1) rfl rfl 5 rfl (ix2 j (0 : Fin 1)) ?_ ?_
  · intro b hb
    match b with
    | ⟨0, _⟩ => rfl
    | ⟨1, _⟩ => exact absurd rfl hb
  · rfl

/-- The stacked codes at last coordinate 6 are piece 6 of the concatenation (the pieces before it fill 6 of the axis). -/
theorem v55_at6 (x1 : IVec S4194304x6 32) (j : Fin 8388608) :
    val_main_v55 (F := Ideal) x1 (ix2 j (6 : Fin 8)) = val_main_v53 (F := Ideal) x1 (ix2 j (0 : Fin 1)) := by
  unfold val_main_v55
  refine concatenate_apply_piece (1 : Fin S8388608x8.rank) _ _ (ix2 j (6 : Fin 8)) 6 (by show (6 : Nat) < 8; decide) S8388608x1
    (val_main_v53 (F := Ideal) x1) rfl rfl 6 rfl (ix2 j (0 : Fin 1)) ?_ ?_
  · intro b hb
    match b with
    | ⟨0, _⟩ => rfl
    | ⟨1, _⟩ => exact absurd rfl hb
  · rfl

/-- The stacked codes at last coordinate 7 are piece 7 of the concatenation (the pieces before it fill 7 of the axis). -/
theorem v55_at7 (x1 : IVec S4194304x6 32) (j : Fin 8388608) :
    val_main_v55 (F := Ideal) x1 (ix2 j (7 : Fin 8)) = val_main_v54 (F := Ideal) x1 (ix2 j (0 : Fin 1)) := by
  unfold val_main_v55
  refine concatenate_apply_piece (1 : Fin S8388608x8.rank) _ _ (ix2 j (7 : Fin 8)) 7 (by show (7 : Nat) < 8; decide) S8388608x1
    (val_main_v54 (F := Ideal) x1) rfl rfl 7 rfl (ix2 j (0 : Fin 1)) ?_ ?_
  · intro b hb
    match b with
    | ⟨0, _⟩ => rfl
    | ⟨1, _⟩ => exact absurd rfl hb
  · rfl

/-- Piece 0 at row `2 n + h` is code 0 of the half's three bytes. -/
theorem piece_0 (x1 : IVec S4194304x6 32) (n : Fin 4194304) (h : Fin 2) :
    val_main_v47 (F := Ideal) x1 (ix2 (row n h) (0 : Fin 1))
      = Cert.Q3.code3 (Cert.Q3.byte x1 n h 0) (Cert.Q3.byte x1 n h 1) (Cert.Q3.byte x1 n h 2) 0 := by
  have e : idx_main_v47 (ix2 (row n h) (0 : Fin 1)) = ix1 (row n h) :=
    funext fun a => by match a with | ⟨0, _⟩ => rfl
  rw [val_main_v47_apply, e, code_0]

/-- Piece 1 at row `2 n + h` is code 1 of the half's three bytes. -/
theorem piece_1 (x1 : IVec S4194304x6 32) (n : Fin 4194304) (h : Fin 2) :
    val_main_v48 (F := Ideal) x1 (ix2 (row n h) (0 : Fin 1))
      = Cert.Q3.code3 (Cert.Q3.byte x1 n h 0) (Cert.Q3.byte x1 n h 1) (Cert.Q3.byte x1 n h 2) 1 := by
  have e : idx_main_v48 (ix2 (row n h) (0 : Fin 1)) = ix1 (row n h) :=
    funext fun a => by match a with | ⟨0, _⟩ => rfl
  rw [val_main_v48_apply, e, code_1]

/-- Piece 2 at row `2 n + h` is code 2 of the half's three bytes. -/
theorem piece_2 (x1 : IVec S4194304x6 32) (n : Fin 4194304) (h : Fin 2) :
    val_main_v49 (F := Ideal) x1 (ix2 (row n h) (0 : Fin 1))
      = Cert.Q3.code3 (Cert.Q3.byte x1 n h 0) (Cert.Q3.byte x1 n h 1) (Cert.Q3.byte x1 n h 2) 2 := by
  have e : idx_main_v49 (ix2 (row n h) (0 : Fin 1)) = ix1 (row n h) :=
    funext fun a => by match a with | ⟨0, _⟩ => rfl
  rw [val_main_v49_apply, e, code_2]

/-- Piece 3 at row `2 n + h` is code 3 of the half's three bytes. -/
theorem piece_3 (x1 : IVec S4194304x6 32) (n : Fin 4194304) (h : Fin 2) :
    val_main_v50 (F := Ideal) x1 (ix2 (row n h) (0 : Fin 1))
      = Cert.Q3.code3 (Cert.Q3.byte x1 n h 0) (Cert.Q3.byte x1 n h 1) (Cert.Q3.byte x1 n h 2) 3 := by
  have e : idx_main_v50 (ix2 (row n h) (0 : Fin 1)) = ix1 (row n h) :=
    funext fun a => by match a with | ⟨0, _⟩ => rfl
  rw [val_main_v50_apply, e, code_3]

/-- Piece 4 at row `2 n + h` is code 4 of the half's three bytes. -/
theorem piece_4 (x1 : IVec S4194304x6 32) (n : Fin 4194304) (h : Fin 2) :
    val_main_v51 (F := Ideal) x1 (ix2 (row n h) (0 : Fin 1))
      = Cert.Q3.code3 (Cert.Q3.byte x1 n h 0) (Cert.Q3.byte x1 n h 1) (Cert.Q3.byte x1 n h 2) 4 := by
  have e : idx_main_v51 (ix2 (row n h) (0 : Fin 1)) = ix1 (row n h) :=
    funext fun a => by match a with | ⟨0, _⟩ => rfl
  rw [val_main_v51_apply, e, code_4]

/-- Piece 5 at row `2 n + h` is code 5 of the half's three bytes. -/
theorem piece_5 (x1 : IVec S4194304x6 32) (n : Fin 4194304) (h : Fin 2) :
    val_main_v52 (F := Ideal) x1 (ix2 (row n h) (0 : Fin 1))
      = Cert.Q3.code3 (Cert.Q3.byte x1 n h 0) (Cert.Q3.byte x1 n h 1) (Cert.Q3.byte x1 n h 2) 5 := by
  have e : idx_main_v52 (ix2 (row n h) (0 : Fin 1)) = ix1 (row n h) :=
    funext fun a => by match a with | ⟨0, _⟩ => rfl
  rw [val_main_v52_apply, e, code_5]

/-- Piece 6 at row `2 n + h` is code 6 of the half's three bytes. -/
theorem piece_6 (x1 : IVec S4194304x6 32) (n : Fin 4194304) (h : Fin 2) :
    val_main_v53 (F := Ideal) x1 (ix2 (row n h) (0 : Fin 1))
      = Cert.Q3.code3 (Cert.Q3.byte x1 n h 0) (Cert.Q3.byte x1 n h 1) (Cert.Q3.byte x1 n h 2) 6 := by
  have e : idx_main_v53 (ix2 (row n h) (0 : Fin 1)) = ix1 (row n h) :=
    funext fun a => by match a with | ⟨0, _⟩ => rfl
  rw [val_main_v53_apply, e, code_6]

/-- Piece 7 at row `2 n + h` is code 7 of the half's three bytes. -/
theorem piece_7 (x1 : IVec S4194304x6 32) (n : Fin 4194304) (h : Fin 2) :
    val_main_v54 (F := Ideal) x1 (ix2 (row n h) (0 : Fin 1))
      = Cert.Q3.code3 (Cert.Q3.byte x1 n h 0) (Cert.Q3.byte x1 n h 1) (Cert.Q3.byte x1 n h 2) 7 := by
  have e : idx_main_v54 (ix2 (row n h) (0 : Fin 1)) = ix1 (row n h) :=
    funext fun a => by match a with | ⟨0, _⟩ => rfl
  rw [val_main_v54_apply, e, code_7]

/-- The stacked codes [8388608, 8] at row `2 n + h`, last coordinate `e`: code `e` of the half's three bytes. -/
theorem v55_code (x1 : IVec S4194304x6 32) (n : Fin 4194304) (h : Fin 2) (e : Fin 8) :
    val_main_v55 (F := Ideal) x1 (ix2 (row n h) e)
      = Cert.Q3.code3 (Cert.Q3.byte x1 n h 0) (Cert.Q3.byte x1 n h 1) (Cert.Q3.byte x1 n h 2) e := by
  match e with
  | ⟨0, _⟩ => exact (v55_at0 x1 (row n h)).trans (piece_0 x1 n h)
  | ⟨1, _⟩ => exact (v55_at1 x1 (row n h)).trans (piece_1 x1 n h)
  | ⟨2, _⟩ => exact (v55_at2 x1 (row n h)).trans (piece_2 x1 n h)
  | ⟨3, _⟩ => exact (v55_at3 x1 (row n h)).trans (piece_3 x1 n h)
  | ⟨4, _⟩ => exact (v55_at4 x1 (row n h)).trans (piece_4 x1 n h)
  | ⟨5, _⟩ => exact (v55_at5 x1 (row n h)).trans (piece_5 x1 n h)
  | ⟨6, _⟩ => exact (v55_at6 x1 (row n h)).trans (piece_6 x1 n h)
  | ⟨7, _⟩ => exact (v55_at7 x1 (row n h)).trans (piece_7 x1 n h)

/-- The codes regrouped sixteen to a group, [4194304, 16]: entry `(n, r)` is flat position `16 n + r` of the stack,
    that is row `2 n + r / 8`, last coordinate `r % 8`: the code at position `r` of group `n`. -/
theorem v56_code (x1 : IVec S4194304x6 32) (n : Fin 4194304) (r : Fin 16) :
    val_main_v56 (F := Ideal) x1 (ix2 n r) = Cert.Q3.code x1 n r := by
  have hr : r.val < 16 := r.isLt
  have e : idx_main_v56 (ix2 n r) = ix2 (row n ⟨r.val / 8, by omega⟩) (⟨r.val % 8, by omega⟩ : Fin 8) :=
    funext fun a => Fin.ext (by
      match a with
      | ⟨0, _⟩ =>
        show (n.val * 16 + r.val) / 8 = 2 * n.val + r.val / 8
        omega
      | ⟨1, _⟩ =>
        show (n.val * 16 + r.val) % 8 = r.val % 8
        omega)
  rw [val_main_v56_apply, e, v55_code]
  rfl

/-- The dequantised weight matrix [8192, 8192] at `(o, k)`: flat position `8192 o + k = 16 (512 o + k / 16) + k % 16` of the
    [4194304, 16] array, so group `512 o + k / 16`, position `k % 16`; there the value is
    `((code / 7) * 2) * scale - scale`, the scale read at `(group, 0)`. -/
theorem v67_weight (x1 : IVec S4194304x6 32) (x2 : FVec Ideal S4194304x1 .f32) (o k : Fin 8192) :
    val_main_v67 (F := Ideal) x1 x2 (ix2 o k) = Cert.Q3.weight x1 x2 o k := by
  have ho : o.val < 8192 := o.isLt
  have hk : k.val < 8192 := k.isLt
  have e : idx_main_v66 (idx_main_v67 (ix2 o k))
      = ix2 (Cert.Q3.grp o ⟨k.val / 16, by omega⟩) (⟨k.val % 16, by omega⟩ : Fin 16) :=
    funext fun a => Fin.ext (by
      match a with
      | ⟨0, _⟩ =>
        show (o.val * 8192 + k.val) / 16 = o.val * 512 + k.val / 16
        omega
      | ⟨1, _⟩ =>
        show (o.val * 8192 + k.val) % 16 = k.val % 16
        omega)
  have es : ∀ (n : Fin 4194304) (r : Fin 16), idx_main_v62 (ix2 n r) = ix2 n (0 : Fin 1) := fun n r =>
    funext fun a => by match a with | ⟨0, _⟩ => rfl | ⟨1, _⟩ => rfl
  have es' : ∀ (n : Fin 4194304) (r : Fin 16), idx_main_v64 (ix2 n r) = ix2 n (0 : Fin 1) := fun n r =>
    funext fun a => by match a with | ⟨0, _⟩ => rfl | ⟨1, _⟩ => rfl
  rw [val_main_v67_apply, val_main_v66_apply, e, val_main_v65_apply, val_main_v63_apply, val_main_v64_apply,
    val_main_v62_apply, val_main_v61_apply, val_main_v60_apply, val_main_cst_18_apply, val_main_v59_apply,
    val_main_v58_apply, val_main_cst_apply, val_main_v57_apply, v56_code, es, es']
  rfl

/-- The reference's result is the plain arrangement: at `(m, o)` the contraction is the sum over the 8192 columns `k` of
    `x (m, k)` times the weight at `(o, k)`, and the broadcast bias is `b o`. -/
theorem ref_eq_G (x0 : FVec Ideal Cert.ReferenceIdeal.S64x8192 .f32) (x1 : IVec Cert.ReferenceIdeal.S4194304x6 32)
    (x2 : FVec Ideal Cert.ReferenceIdeal.S4194304x1 .f32) (x3 : FVec Ideal Cert.ReferenceIdeal.S8192 .f32) :
    Cert.ReferenceIdeal.Read.val_main_v71 (F := Ideal) x0 x1 x2 x3 = Cert.Q3.G x0 x1 x2 x3 := by
  funext i
  obtain ⟨m, o, rfl⟩ : ∃ (m : Fin 64) (o : Fin 8192), i = ix2 m o := ⟨i 0, i 1, eq_ix2 i⟩
  have el : ∀ k : Fin 8192, lidx_main_v68 (ix2 m o) k = ix2 m k := fun k =>
    funext fun a => by match a with | ⟨0, _⟩ => rfl | ⟨1, _⟩ => rfl
  have er : ∀ k : Fin 8192, ridx_main_v68 (ix2 m o) k = ix2 o k := fun k =>
    funext fun a => by match a with | ⟨0, _⟩ => rfl | ⟨1, _⟩ => rfl
  have eb : idx_main_v69 (idx_main_v70 (ix2 m o)) = ix1 o :=
    funext fun a => by match a with | ⟨0, _⟩ => rfl
  rw [val_main_v71_apply, val_main_v68_apply, val_main_v70_apply, val_main_v69_apply, eb]
  show (∑ k : Fin 8192, x0 (lidx_main_v68 (ix2 m o) k) * val_main_v67 (F := Ideal) x1 x2 (ridx_main_v68 (ix2 m o) k)) + x3 (ix1 o)
    = (∑ k : Fin 8192, x0 (ix2 m k) * Cert.Q3.weight x1 x2 o k) + x3 (ix1 o)
  refine congrArg (· + x3 (ix1 o)) (Finset.sum_congr rfl fun k _ => ?_)
  rw [el, er, v67_weight]

end Cert.ReferenceIdeal.RefValue

end
-- ==== Proof.KernelBody.lean ====
/-
  The kernel body's result, read at an index. One grid point holds a block of 1024 output features. Its body forms, for
  each of the sixteen positions `r` inside a group, the 1024 × 512 matrix `c_r * (s * (2/7))` — `c_r` the three bits
  of the packed word from bit `21 - 3 (r mod 8)` up (the first eight positions read the first packed word, the last eight
  the second), `s` the block of scales — and multiplies the 512 columns `r * 512 …` of the re-laid `x` by its transpose;
  the sixteen products are added left to right onto zero, the product of the per-group sums with the scales is
  subtracted, and the bias row is added to every row. At `Ideal` a matrix product into a zero accumulator is the plain
  sum over the contracted axis and a change of float format is the identity, so the entry at row `p`, feature `j` of the
  block is that arithmetic of the entries the body loaded.
-/
import proofs.«420909_j51402168599335_3_alg».proof.Proof.Spec
import proofs.«420909_j51402168599335_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Body

open Cert.KernelIdeal Cert.KernelIdeal.Gen Idealize.ShloMosaic Idealize.ShloMosaic.ValueIdx Idealize.ShloMosaic.TcCoe

/-! ## The matrix product, entry by entry -/

theorem lhs_dot_0 (i : S64x1024.Idx) (q : dot_S64x512_S1024x512_S64x1024_1_1_0_0_n_n.contr.Idx) :
    (dot_S64x512_S1024x512_S64x1024_1_1_0_0_n_n.lhsIdx i q 0).val = (i 0).val := by
  unfold DotDims.lhsIdx
  rw [dif_neg (show ¬(0 : Fin S64x512.rank) ∈ dot_S64x512_S1024x512_S64x1024_1_1_0_0_n_n.lhsBatch by decide), dif_pos (show (0 : Fin S64x512.rank) ∈ dot_S64x512_S1024x512_S64x1024_1_1_0_0_n_n.lhsNonContracting by decide)]
  rfl
theorem lhs_dot_1 (i : S64x1024.Idx) (q : dot_S64x512_S1024x512_S64x1024_1_1_0_0_n_n.contr.Idx) :
    (dot_S64x512_S1024x512_S64x1024_1_1_0_0_n_n.lhsIdx i q 1).val = (q ⟨0, by decide⟩).val :=
  dot_S64x512_S1024x512_S64x1024_1_1_0_0_n_n.lhsIdx_val_of_single rfl i q
theorem rhs_dot_0 (i : S64x1024.Idx) (q : dot_S64x512_S1024x512_S64x1024_1_1_0_0_n_n.contr.Idx) :
    (dot_S64x512_S1024x512_S64x1024_1_1_0_0_n_n.rhsIdx i q 0).val = (i 1).val := by
  unfold DotDims.rhsIdx
  rw [dif_neg (show ¬(0 : Fin S1024x512.rank) ∈ dot_S64x512_S1024x512_S64x1024_1_1_0_0_n_n.rhsBatch by decide), dif_pos (show (0 : Fin S1024x512.rank) ∈ dot_S64x512_S1024x512_S64x1024_1_1_0_0_n_n.rhsNonContracting by decide)]
  rfl
theorem rhs_dot_1 (i : S64x1024.Idx) (q : dot_S64x512_S1024x512_S64x1024_1_1_0_0_n_n.contr.Idx) :
    (dot_S64x512_S1024x512_S64x1024_1_1_0_0_n_n.rhsIdx i q 1).val = (q ⟨0, by decide⟩).val :=
  dot_S64x512_S1024x512_S64x1024_1_1_0_0_n_n.rhsIdx_val_of_single rfl i q

/-- A [64, 512] by [1024, 512] product contracting the 512-axes, into zero: entry (p, j) is the sum over `g` of
    `L (p, g) * R (j, g)`, whatever the operands' formats and the pass precision. -/
theorem matmul_zero_ix {φ₁ φ₂ : FTy} (prec : Option ContractPrecision) (L : FVec Ideal S64x512 φ₁) (R : FVec Ideal S1024x512 φ₂)
    (p : Fin 64) (j : Fin 1024) :
    matmul dot_S64x512_S1024x512_S64x1024_1_1_0_0_n_n prec L R (constant S64x1024 .f32 0x00000000#32) (ix2 p j) = ∑ g : Fin 512, L (ix2 p g) * R (ix2 j g) := by
  simp only [matmul]
  rw [Ideal.matmul_constant_zero_apply, ← Equiv.sum_comp (ValueIdx.contrEquiv1 dot_S64x512_S1024x512_S64x1024_1_1_0_0_n_n 512 rfl rfl).symm]
  refine Finset.sum_congr rfl fun k _ => ?_
  have hk := ValueIdx.contrEquiv1_symm_val dot_S64x512_S1024x512_S64x1024_1_1_0_0_n_n 512 rfl rfl k
  have el : dot_S64x512_S1024x512_S64x1024_1_1_0_0_n_n.lhsIdx (ix2 p j) ((ValueIdx.contrEquiv1 dot_S64x512_S1024x512_S64x1024_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S64x512_S1024x512_S64x1024_1_1_0_0_n_n.rhsIdx (ix2 p j) ((ValueIdx.contrEquiv1 dot_S64x512_S1024x512_S64x1024_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-! ## The pieces of the body -/

/-- The named constant is 2/7 at `Ideal`. -/
theorem two_sevenths : Named.named (F := Ideal) κ "c_2_7" (φ := .f32) 0x3E924925#32 = ((2 / 7 : ℝ) : EReal) :=
  IdealRules.named_const.ideal_named_scalar _ _ _ _ rfl

/-- Half `h` of the packed block: entry (j, g) of the [1024, 512] slab is entry (h, j, g) of the block. -/
theorem half_apply (x2 : IVec S2x1024x512 32) (hn : Nat) (hlt : hn < 2) (hs : S2x1024x512.Slices ![hn, 0, 0] S1x1024x512) (j : Fin 1024) (g : Fin 512) :
    shapeCast S1024x512 (extractStridedSlice S1x1024x512 ![hn, 0, 0] x2 hs) Gen.shapeCasts_S1x1024x512_S1024x512 (ix2 j g) = x2 (ix3 (⟨hn, hlt⟩ : Fin 2) j g) := by
  rw [shapeCast_1ab_ab_apply]
  exact extractStridedSlice_apply _ x2 hs _ (ix3 (⟨hn, hlt⟩ : Fin 2) j g) (fun a => by
    match a with
    | ⟨0, _⟩ => exact (Nat.add_zero _).symm
    | ⟨1, _⟩ => exact (Nat.zero_add _).symm
    | ⟨2, _⟩ => exact (Nat.zero_add _).symm)

/-- Position `r`'s partial product at (p, j), over the entries the body loaded: `x0` the re-laid `x` (columns
    `off … off + 511`), `x2` the packed block (half `h`), `x3` the scales. -/
def part (x0 : Vec Ideal S64x8192 .bf16) (x2 : Vec Ideal S2x1024x512 .i32) (x3 : Vec Ideal S1024x512 .f32) (p : Fin 64) (j : Fin 1024)
    (h : Fin 2) (off : Nat) (hoff : off + 512 ≤ 8192) (sh : BitVec 32) : EReal :=
  ∑ g : Fin 512, x0 (ix2 p ⟨off + g.val, by omega⟩)
    * ((((Cert.Q3.field (x2 (ix3 h j g)) sh).toInt : ℝ) : EReal) * (x3 (ix2 j g) * ((2 / 7 : ℝ) : EReal)))

/-- One decode-and-multiply step of the body IS that partial product. -/
theorem step_apply (x0 : Vec Ideal S64x8192 .bf16) (x2 : Vec Ideal S2x1024x512 .i32) (x3 : Vec Ideal S1024x512 .f32) (p : Fin 64) (j : Fin 1024)
    (hn : Nat) (hlt : hn < 2) (hs : S2x1024x512.Slices ![hn, 0, 0] S1x1024x512) (off : Nat) (hoff : off + 512 ≤ 8192) (ho : S64x8192.Slices ![0, off] S64x512) (sh : BitVec 32) :
    matmul (φ₁ := .bf16) (φ₂ := .bf16) dot_S64x512_S1024x512_S64x1024_1_1_0_0_n_n none (extractStridedSlice S64x512 ![0, off] x0 ho)
        (truncf .bf16 (mulf (sitofp .f32 (andi (shrsi (shapeCast S1024x512 (extractStridedSlice S1x1024x512 ![hn, 0, 0] x2 hs) Gen.shapeCasts_S1x1024x512_S1024x512) (broadcast S1024x512 sh)) (broadcast S1024x512 7#32)))
          (mulf x3 (broadcast S1024x512 (Named.named (F := Ideal) κ "c_2_7" (φ := .f32) 0x3E924925#32)))) Gen.bitsLt_bf16_f32)
        (constant S64x1024 .f32 0x00000000#32) (ix2 p j)
      = part x0 x2 x3 p j ⟨hn, hlt⟩ off hoff sh := by
  rw [matmul_zero_ix]
  unfold part
  refine Finset.sum_congr rfl fun g _ => ?_
  rw [slice2_axis1_eq]
  show x0 _ * (((((IntOp.andi (IntOp.shrsi .vector (shapeCast S1024x512 (extractStridedSlice S1x1024x512 ![hn, 0, 0] x2 hs) Gen.shapeCasts_S1x1024x512_S1024x512 (ix2 j g)) sh) 7#32).toInt : ℝ) : EReal)) * (x3 (ix2 j g) * Named.named (F := Ideal) κ "c_2_7" (φ := .f32) 0x3E924925#32)) = _
  rw [half_apply, two_sevenths]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's result -/

/-- The block the body leaves, entry (p, j): the sixteen partial products added left to right onto zero, less the
    per-group sums `x1` against the scales, plus the bias row `x4`. -/
theorem out_apply (x0 : Vec Ideal S64x8192 .bf16) (x1 : Vec Ideal S64x512 .f32) (x2 : Vec Ideal S2x1024x512 .i32) (x3 : Vec Ideal S1024x512 .f32)
    (x4 : Vec Ideal S1x1024 .f32) (p : Fin 64) (j : Fin 1024) :
    out0_5 (F := Ideal) x0 x1 x2 x3 x4 (ix2 p j)
      = ((0 + part x0 x2 x3 p j ⟨0, by omega⟩ 0 (by omega) 21#32
          + part x0 x2 x3 p j ⟨0, by omega⟩ 512 (by omega) 18#32
          + part x0 x2 x3 p j ⟨0, by omega⟩ 1024 (by omega) 15#32
          + part x0 x2 x3 p j ⟨0, by omega⟩ 1536 (by omega) 12#32
          + part x0 x2 x3 p j ⟨0, by omega⟩ 2048 (by omega) 9#32
          + part x0 x2 x3 p j ⟨0, by omega⟩ 2560 (by omega) 6#32
          + part x0 x2 x3 p j ⟨0, by omega⟩ 3072 (by omega) 3#32
          + part x0 x2 x3 p j ⟨0, by omega⟩ 3584 (by omega) 0#32
          + part x0 x2 x3 p j ⟨1, by omega⟩ 4096 (by omega) 21#32
          + part x0 x2 x3 p j ⟨1, by omega⟩ 4608 (by omega) 18#32
          + part x0 x2 x3 p j ⟨1, by omega⟩ 5120 (by omega) 15#32
          + part x0 x2 x3 p j ⟨1, by omega⟩ 5632 (by omega) 12#32
          + part x0 x2 x3 p j ⟨1, by omega⟩ 6144 (by omega) 9#32
          + part x0 x2 x3 p j ⟨1, by omega⟩ 6656 (by omega) 6#32
          + part x0 x2 x3 p j ⟨1, by omega⟩ 7168 (by omega) 3#32
          + part x0 x2 x3 p j ⟨1, by omega⟩ 7680 (by omega) 0#32)
          - ∑ g : Fin 512, x1 (ix2 p g) * x3 (ix2 j g))
        + x4 (ix2 (0 : Fin 1) j) := by
  unfold out0_5
  rw [View.canon_unit_zero hz2]
  simp only [View.ld_unit_zero (S := S64x8192) hz2, View.ld_unit_zero (S := S64x512) hz2, View.ld_unit_zero (S := S1024x512) hz2,
    View.ld_unit_zero (S := S1x1024) hz2, View.ld_unit_zero (S := S2x1024x512) hz3]
  unfold k0_pay1 k0_pay14 k0_pay13 k0_pay11 k0_pay12 k0_pay8 k0_pay9 k0_pay10 k0_pay7 k0_pay6 k0_pay5 k0_pay4 k0_pay3 k0_pay2
  simp only [shapeCast_self]
  simp only [addf_apply, subf_apply]
  rw [step_apply x0 x2 x3 p j 0 (by omega) Gen.slices_S2x1024x512_o0_0_0_S1x1024x512 0 (by omega) Gen.slices_S64x8192_o0_0_S64x512 21#32,
    step_apply x0 x2 x3 p j 0 (by omega) Gen.slices_S2x1024x512_o0_0_0_S1x1024x512 512 (by omega) Gen.slices_S64x8192_o0_512_S64x512 18#32,
    step_apply x0 x2 x3 p j 0 (by omega) Gen.slices_S2x1024x512_o0_0_0_S1x1024x512 1024 (by omega) Gen.slices_S64x8192_o0_1024_S64x512 15#32,
    step_apply x0 x2 x3 p j 0 (by omega) Gen.slices_S2x1024x512_o0_0_0_S1x1024x512 1536 (by omega) Gen.slices_S64x8192_o0_1536_S64x512 12#32,
    step_apply x0 x2 x3 p j 0 (by omega) Gen.slices_S2x1024x512_o0_0_0_S1x1024x512 2048 (by omega) Gen.slices_S64x8192_o0_2048_S64x512 9#32,
    step_apply x0 x2 x3 p j 0 (by omega) Gen.slices_S2x1024x512_o0_0_0_S1x1024x512 2560 (by omega) Gen.slices_S64x8192_o0_2560_S64x512 6#32,
    step_apply x0 x2 x3 p j 0 (by omega) Gen.slices_S2x1024x512_o0_0_0_S1x1024x512 3072 (by omega) Gen.slices_S64x8192_o0_3072_S64x512 3#32,
    step_apply x0 x2 x3 p j 0 (by omega) Gen.slices_S2x1024x512_o0_0_0_S1x1024x512 3584 (by omega) Gen.slices_S64x8192_o0_3584_S64x512 0#32,
    step_apply x0 x2 x3 p j 1 (by omega) Gen.slices_S2x1024x512_o1_0_0_S1x1024x512 4096 (by omega) Gen.slices_S64x8192_o0_4096_S64x512 21#32,
    step_apply x0 x2 x3 p j 1 (by omega) Gen.slices_S2x1024x512_o1_0_0_S1x1024x512 4608 (by omega) Gen.slices_S64x8192_o0_4608_S64x512 18#32,
    step_apply x0 x2 x3 p j 1 (by omega) Gen.slices_S2x1024x512_o1_0_0_S1x1024x512 5120 (by omega) Gen.slices_S64x8192_o0_5120_S64x512 15#32,
    step_apply x0 x2 x3 p j 1 (by omega) Gen.slices_S2x1024x512_o1_0_0_S1x1024x512 5632 (by omega) Gen.slices_S64x8192_o0_5632_S64x512 12#32,
    step_apply x0 x2 x3 p j 1 (by omega) Gen.slices_S2x1024x512_o1_0_0_S1x1024x512 6144 (by omega) Gen.slices_S64x8192_o0_6144_S64x512 9#32,
    step_apply x0 x2 x3 p j 1 (by omega) Gen.slices_S2x1024x512_o1_0_0_S1x1024x512 6656 (by omega) Gen.slices_S64x8192_o0_6656_S64x512 6#32,
    step_apply x0 x2 x3 p j 1 (by omega) Gen.slices_S2x1024x512_o1_0_0_S1x1024x512 7168 (by omega) Gen.slices_S64x8192_o0_7168_S64x512 3#32,
    step_apply x0 x2 x3 p j 1 (by omega) Gen.slices_S2x1024x512_o1_0_0_S1x1024x512 7680 (by omega) Gen.slices_S64x8192_o0_7680_S64x512 0#32,
    matmul_zero_ix, broadcastTo_1b_ab_apply, broadcast_apply]
  show ((Ideal.ofBits .f32 0x00000000#32 + _ + _ + _ + _ + _ + _ + _ + _ + _ + _ + _ + _ + _ + _ + _ + _) - _) + _ = _
  rw [Ideal.ofBits_zero_f32]

end Cert.KernelIdeal.Body

end
-- ==== Proof.HostSide.lean ====
/-
  The arrays the region finds, as functions of the arguments. Before the pallas_call, @main re-lays `x` so that column
  `r * 512 + g` of the new [64, 8192] array is column `g * 16 + r` of `x` (a reshape to [64, 512, 16], a transpose of the
  last two axes, a reshape back; the change of float format is the identity at `Ideal`); sums `x` over the sixteen
  columns of each group; packs each group's two halves of three byte-valued words into two 24-bit words (each byte
  masked to eight bits, shifted to its place, or-ed); and reshapes the scales to [8192, 512] and the bias to [1, 8192].
  Each lemma reads one of those five arrays at an index.
-/
import proofs.«420909_j51402168599335_3_alg».proof.Proof.Spec
import proofs.«420909_j51402168599335_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostSide

open Cert.KernelIdeal Cert.KernelIdeal.Gen Idealize.ShloMosaic Idealize.ShloMosaic.ValueIdx Idealize.ShloMosaic.TcCoe Idealize.SL.Sem Idealize.ShloMosaic.StableHlo
open Cert.Q3 (grp col)

variable (m : (ℓ : Loc nD τ sig) → Buf (Elt Ideal) ℓ)

/-- The four arguments' launch contents, at their literal types. -/
abbrev argX (c : Dev nD) : S64x8192.Idx → EReal := m ((c : Thread nD τ).loc main_arg0)
abbrev argQ (c : Dev nD) : S4194304x6.Idx → BitVec 32 := m ((c : Thread nD τ).loc main_arg1)
abbrev argW (c : Dev nD) : S4194304x1.Idx → EReal := m ((c : Thread nD τ).loc main_arg2)
abbrev argB (c : Dev nD) : S8192.Idx → EReal := m ((c : Thread nD τ).loc main_arg3)

/-! ## The scales and the bias: reshapes -/

theorem v40_eq (c : Dev nD) : (V m c main_v40 : S8192x512.Idx → EReal)
    = shapeCast S8192x512 (m ((c : Thread nD τ).loc main_arg2)) Gen.shapeCasts_S4194304x1_S8192x512 := by
  dsimp only [Gen.V, Gen.hostOps0]; after_results; rfl

/-- The scale the region finds at (o, g) is the scale of group `o * 512 + g`. -/
theorem scale_apply (c : Dev nD) (o : Fin 8192) (g : Fin 512) :
    (V m c main_v40 : S8192x512.Idx → EReal) (ix2 o g) = Cert.Q3.scale (argW m c) (grp o g) :=
  (congrFun (v40_eq m c) (ix2 o g)).trans (shapeCast_apply _ _ _ (ix2 (grp o g) (0 : Fin 1)) (by
    rw [Shape.rowMajor_val_two, Shape.rowMajor_val_two]
    show (o.val * 512 + g.val) * 1 + 0 = o.val * 512 + g.val
    omega))

theorem v41_eq (c : Dev nD) : (V m c main_v41 : S1x8192.Idx → EReal)
    = shapeCast S1x8192 (m ((c : Thread nD τ).loc main_arg3)) Gen.shapeCasts_S8192_S1x8192 := by
  dsimp only [Gen.V, Gen.hostOps0]; after_results; rfl

/-- The bias row at (0, o) is `b o`. -/
theorem bias_apply (c : Dev nD) (o : Fin 8192) :
    (V m c main_v41 : S1x8192.Idx → EReal) (ix2 (0 : Fin 1) o) = argB m c (ix1 o) :=
  (congrFun (v41_eq m c) (ix2 (0 : Fin 1) o)).trans (shapeCast_apply _ _ _ (ix1 o) (by
    rw [Shape.rowMajor_val_one, Shape.rowMajor_val_two]
    show o.val = 0 * 8192 + o.val
    omega))

/-! ## `x` re-laid, and its per-group sums -/

/-- `x` as [64, 512, 16]: entry (p, g, r) is `x (p, g * 16 + r)`. -/
theorem x3_apply (x : S64x8192.Idx → EReal) (p : Fin 64) (g : Fin 512) (r : Fin 16) :
    shapeCast S64x512x16 x Gen.shapeCasts_S64x8192_S64x512x16 (ix3 p g r) = x (ix2 p (col g r)) :=
  shapeCast_apply _ _ _ (ix2 p (col g r)) (by
    rw [Shape.rowMajor_val_two, Shape.rowMajor_val_three]
    show p.val * 8192 + (g.val * 16 + r.val) = (p.val * 512 + g.val) * 16 + r.val
    omega)

theorem v45_eq (c : Dev nD) : (V m c main_v45 : S64x8192.Idx → EReal)
    = truncf (F := Ideal) .bf16 (shapeCast S64x8192 (transpose S64x16x512 [0, 2, 1] (shapeCast S64x512x16 (m ((c : Thread nD τ).loc main_arg0)) Gen.shapeCasts_S64x8192_S64x512x16)
        Gen.transposes_S64x512x16_S64x16x512_0_2_1) Gen.shapeCasts_S64x16x512_S64x8192) Gen.bitsLt_bf16_f32 := by
  dsimp only [Gen.V, Gen.hostOps0]; after_results; rfl

/-- `x` re-laid, at column `k = r * 512 + g`, is `x` at column `g * 16 + r`. -/
theorem relaid_apply (x : S64x8192.Idx → EReal) (p : Fin 64) (r : Fin 16) (g : Fin 512) (k : Fin 8192) (hk : k.val = r.val * 512 + g.val) :
    truncf (F := Ideal) .bf16 (shapeCast S64x8192 (transpose S64x16x512 [0, 2, 1] (shapeCast S64x512x16 x Gen.shapeCasts_S64x8192_S64x512x16)
        Gen.transposes_S64x512x16_S64x16x512_0_2_1) Gen.shapeCasts_S64x16x512_S64x8192) Gen.bitsLt_bf16_f32 (ix2 p k) = x (ix2 p (col g r)) := by
  show shapeCast S64x8192 (transpose S64x16x512 [0, 2, 1] (shapeCast S64x512x16 x Gen.shapeCasts_S64x8192_S64x512x16)
        Gen.transposes_S64x512x16_S64x16x512_0_2_1) Gen.shapeCasts_S64x16x512_S64x8192 (ix2 p k) = _
  rw [shapeCast_apply _ Gen.shapeCasts_S64x16x512_S64x8192 (ix2 p k) (ix3 p r g) (by
    rw [Shape.rowMajor_val_three, Shape.rowMajor_val_two]
    show (p.val * 16 + r.val) * 512 + g.val = p.val * 8192 + k.val
    omega)]
  rw [transpose_ix3_021_apply, x3_apply]

/-- The re-laid `x` the region finds, at column `r * 512 + g`, is `x` at column `g * 16 + r`. -/
theorem xcat_apply (c : Dev nD) (p : Fin 64) (r : Fin 16) (g : Fin 512) (k : Fin 8192) (hk : k.val = r.val * 512 + g.val) :
    (V m c main_v45 : S64x8192.Idx → EReal) (ix2 p k) = argX m c (ix2 p (col g r)) :=
  (congrFun (v45_eq m c) (ix2 p k)).trans (relaid_apply _ p r g k hk)

theorem v46_eq (c : Dev nD) : (V m c main_v46 : S64x512.Idx → EReal)
    = Host.reduceAdd (shapeCast S64x512x16 (m ((c : Thread nD τ).loc main_arg0)) Gen.shapeCasts_S64x8192_S64x512x16) (constant (F := Ideal) S_ .f32 0x00000000#32)
        Gen.reducesTo_S64x512x16_S64x512_d2 Gen.h_S_ := by
  dsimp only [Gen.V, Gen.hostOps0]; after_results; rfl

/-- The host's sum over the last axis of `x` as [64, 512, 16], from zero: at (p, g), zero plus the sum of `x` over the
    group's sixteen columns. -/
theorem gsum_pure (x : S64x8192.Idx → EReal) (p : Fin 64) (g : Fin 512) :
    Host.reduceAdd (shapeCast S64x512x16 x Gen.shapeCasts_S64x8192_S64x512x16) (constant (F := Ideal) S_ .f32 0x00000000#32)
        Gen.reducesTo_S64x512x16_S64x512_d2 Gen.h_S_ (ix2 p g) = 0 + ∑ r : Fin 16, x (ix2 p (col g r)) := by
  rw [hostReduceAdd_apply, Ideal.hostReduceAdd_single Gen.reducesTo_S64x512x16_S64x512_d2 (by decide : S64x512x16.Reduces [2] S64x512)]
  show Ideal.ofBits .f32 0x00000000#32 + ∑ r : Fin 16, _ = _
  rw [Ideal.ofBits_zero_f32]
  refine congrArg (0 + ·) (Finset.sum_congr rfl fun r _ => ?_)
  exact (congrArg _ (funext fun a => Fin.ext (by
    match a with
    | ⟨0, _⟩ => rfl
    | ⟨1, _⟩ => rfl
    | ⟨2, _⟩ => rfl))).trans (x3_apply x p g r)

/-- The per-group sum the region finds at (p, g). -/
theorem gsum_apply (c : Dev nD) (p : Fin 64) (g : Fin 512) :
    (V m c main_v46 : S64x512.Idx → EReal) (ix2 p g) = 0 + ∑ r : Fin 16, argX m c (ix2 p (col g r)) :=
  (congrFun (v46_eq m c) (ix2 p g)).trans (gsum_pure _ p g)

/-! ## The packed words -/

/-- Column `a` of the [8192, 512, 6] view of `q`, each word masked to its low eight bits. -/
def byteCol (q3 : IVec S8192x512x6 32) (a : Nat) (hs : S8192x512x6.Slices ![0, 0, a] S8192x512x1) : IVec S8192x512 32 :=
  andi (shapeCast S8192x512 (extractStridedSlice S8192x512x1 ![0, 0, a] q3 hs) Gen.shapeCasts_S8192x512x1_S8192x512)
    (broadcastInDim S8192x512 ![] Gen.bcast_S_S8192x512 (constantI S_ 32 255#32))

/-- Three masked columns side by side in one word: the first shifted to bit 16, the second to bit 8. -/
def packed (q3 : IVec S8192x512x6 32) (a0 a1 a2 : Nat) (h0 : S8192x512x6.Slices ![0, 0, a0] S8192x512x1) (h1 : S8192x512x6.Slices ![0, 0, a1] S8192x512x1)
    (h2 : S8192x512x6.Slices ![0, 0, a2] S8192x512x1) : IVec S8192x512 32 :=
  ori (ori (Host.shli (byteCol q3 a0 h0) (broadcastInDim S8192x512 ![] Gen.bcast_S_S8192x512 (constantI S_ 32 16#32)))
      (Host.shli (byteCol q3 a1 h1) (broadcastInDim S8192x512 ![] Gen.bcast_S_S8192x512 (constantI S_ 32 8#32))))
    (byteCol q3 a2 h2)

set_option maxHeartbeats 4000000 in
theorem v39_eq (c : Dev nD) : (V m c main_v39 : S2x8192x512.Idx → BitVec 32)
    = concatenate S2x8192x512 0
        [⟨S1x8192x512, broadcastInDim S1x8192x512 ![1, 2] Gen.bcast_S8192x512_S1x8192x512_1_2
            (packed (shapeCast S8192x512x6 (m ((c : Thread nD τ).loc main_arg1)) Gen.shapeCasts_S4194304x6_S8192x512x6) 0 1 2
              Gen.slices_S8192x512x6_S8192x512x1_0_0_0 Gen.slices_S8192x512x6_S8192x512x1_0_0_1 Gen.slices_S8192x512x6_S8192x512x1_0_0_2)⟩,
         ⟨S1x8192x512, broadcastInDim S1x8192x512 ![1, 2] Gen.bcast_S8192x512_S1x8192x512_1_2
            (packed (shapeCast S8192x512x6 (m ((c : Thread nD τ).loc main_arg1)) Gen.shapeCasts_S4194304x6_S8192x512x6) 3 4 5
              Gen.slices_S8192x512x6_S8192x512x1_0_0_3 Gen.slices_S8192x512x6_S8192x512x1_0_0_4 Gen.slices_S8192x512x6_S8192x512x1_0_0_5)⟩]
        Gen.concatenates_S1x8192x512_S1x8192x512_S2x8192x512_d0 := by
  dsimp only [Gen.V, Gen.hostOps0]; after_results; rfl

/-- A masked column at (o, g): the low eight bits of word `a` of group `o * 512 + g`. -/
theorem byteCol_apply (q : IVec S4194304x6 32) (a : Fin 6) (hs : S8192x512x6.Slices ![0, 0, a.val] S8192x512x1) (o : Fin 8192) (g : Fin 512) :
    byteCol (shapeCast S8192x512x6 q Gen.shapeCasts_S4194304x6_S8192x512x6) a.val hs (ix2 o g) = IntOp.andi (q (ix2 (grp o g) a)) 255#32 := by
  show IntOp.andi (shapeCast S8192x512 _ Gen.shapeCasts_S8192x512x1_S8192x512 (ix2 o g)) _ = _
  rw [shapeCast_apply _ Gen.shapeCasts_S8192x512x1_S8192x512 (ix2 o g) (ix3 o g (0 : Fin 1)) (by
    rw [Shape.rowMajor_val_three, Shape.rowMajor_val_two]
    show (o.val * 512 + g.val) * 1 + 0 = o.val * 512 + g.val
    omega)]
  rw [extractStridedSlice_apply _ _ hs (ix3 o g (0 : Fin 1)) (ix3 o g a) (fun ax => by
    match ax with
    | ⟨0, _⟩ => exact (Nat.zero_add _).symm
    | ⟨1, _⟩ => exact (Nat.zero_add _).symm
    | ⟨2, _⟩ => exact (Nat.add_zero _).symm)]
  rw [shapeCast_apply q Gen.shapeCasts_S4194304x6_S8192x512x6 (ix3 o g a) (ix2 (grp o g) a) (by
    rw [Shape.rowMajor_val_two, Shape.rowMajor_val_three]
    show (o.val * 512 + g.val) * 6 + a.val = (o.val * 512 + g.val) * 6 + a.val
    rfl)]
  rfl

/-- The packed word of three columns at (o, g) is `pack3` of the three words. -/
theorem packed_apply (q : IVec S4194304x6 32) (a0 a1 a2 : Fin 6) (h0 : S8192x512x6.Slices ![0, 0, a0.val] S8192x512x1)
    (h1 : S8192x512x6.Slices ![0, 0, a1.val] S8192x512x1) (h2 : S8192x512x6.Slices ![0, 0, a2.val] S8192x512x1) (o : Fin 8192) (g : Fin 512) :
    packed (shapeCast S8192x512x6 q Gen.shapeCasts_S4194304x6_S8192x512x6) a0.val a1.val a2.val h0 h1 h2 (ix2 o g)
      = Cert.Q3.pack3 (q (ix2 (grp o g) a0)) (q (ix2 (grp o g) a1)) (q (ix2 (grp o g) a2)) := by
  show IntOp.ori (IntOp.ori (IntOp.shli .host (byteCol _ a0.val h0 (ix2 o g)) 16#32) (IntOp.shli .host (byteCol _ a1.val h1 (ix2 o g)) 8#32)) (byteCol _ a2.val h2 (ix2 o g)) = _
  rw [byteCol_apply, byteCol_apply, byteCol_apply]
  rfl

/-- The two packed slabs stacked, at (h, o, g): half `h` of group `o * 512 + g`, its three bytes packed. -/
theorem stacked_apply (q : IVec S4194304x6 32) (h : Fin 2) (o : Fin 8192) (g : Fin 512) :
    concatenate S2x8192x512 0
        [⟨S1x8192x512, broadcastInDim S1x8192x512 ![1, 2] Gen.bcast_S8192x512_S1x8192x512_1_2
            (packed (shapeCast S8192x512x6 q Gen.shapeCasts_S4194304x6_S8192x512x6) 0 1 2
              Gen.slices_S8192x512x6_S8192x512x1_0_0_0 Gen.slices_S8192x512x6_S8192x512x1_0_0_1 Gen.slices_S8192x512x6_S8192x512x1_0_0_2)⟩,
         ⟨S1x8192x512, broadcastInDim S1x8192x512 ![1, 2] Gen.bcast_S8192x512_S1x8192x512_1_2
            (packed (shapeCast S8192x512x6 q Gen.shapeCasts_S4194304x6_S8192x512x6) 3 4 5
              Gen.slices_S8192x512x6_S8192x512x1_0_0_3 Gen.slices_S8192x512x6_S8192x512x1_0_0_4 Gen.slices_S8192x512x6_S8192x512x1_0_0_5)⟩]
        Gen.concatenates_S1x8192x512_S1x8192x512_S2x8192x512_d0 (ix3 h o g)
      = Cert.Q3.pack3 (Cert.Q3.byte q (grp o g) h 0) (Cert.Q3.byte q (grp o g) h 1) (Cert.Q3.byte q (grp o g) h 2) := by
  have hb : ∀ (P : IVec S8192x512 32), broadcastInDim S1x8192x512 ![1, 2] Gen.bcast_S8192x512_S1x8192x512_1_2 P (ix3 (0 : Fin 1) o g) = P (ix2 o g) := fun P =>
    broadcastInDim_apply _ Gen.bcast_S8192x512_S1x8192x512_1_2 P (ix3 (0 : Fin 1) o g) (ix2 o g) (fun a => by
      match a with
      | ⟨0, _⟩ => show o.val = if (8192 : Nat) = 1 then 0 else o.val; rw [if_neg (by decide)]
      | ⟨1, _⟩ => show g.val = if (512 : Nat) = 1 then 0 else g.val; rw [if_neg (by decide)])
  match h with
  | ⟨0, _⟩ =>
    refine (concatenate_pair_apply_left (t := S2x8192x512) (s₁ := S1x8192x512) (s₂ := S1x8192x512) (0 : Fin 3) _ _
      Gen.concatenates_S1x8192x512_S1x8192x512_S2x8192x512_d0 _ rfl (ix3 (0 : Fin 1) o g) (fun b => by
        match b with
        | ⟨0, _⟩ => rfl
        | ⟨1, _⟩ => rfl
        | ⟨2, _⟩ => rfl)).trans ?_
    rw [hb]
    exact packed_apply q 0 1 2 _ _ _ o g
  | ⟨1, _⟩ =>
    refine (concatenate_pair_apply_right (t := S2x8192x512) (s₁ := S1x8192x512) (s₂ := S1x8192x512) (0 : Fin 3) _ _
      Gen.concatenates_S1x8192x512_S1x8192x512_S2x8192x512_d0 _ rfl rfl (ix3 (0 : Fin 1) o g) (fun b hb' => by
        match b with
        | ⟨0, _⟩ => exact absurd rfl hb'
        | ⟨1, _⟩ => rfl
        | ⟨2, _⟩ => rfl) rfl).trans ?_
    rw [hb]
    exact packed_apply q 3 4 5 _ _ _ o g

/-- The packed block the region finds, at (h, o, g). -/
theorem wpk_apply (c : Dev nD) (h : Fin 2) (o : Fin 8192) (g : Fin 512) :
    (V m c main_v39 : S2x8192x512.Idx → BitVec 32) (ix3 h o g)
      = Cert.Q3.pack3 (Cert.Q3.byte (argQ m c) (grp o g) h 0) (Cert.Q3.byte (argQ m c) (grp o g) h 1) (Cert.Q3.byte (argQ m c) (grp o g) h 2) :=
  (congrFun (v39_eq m c) (ix3 h o g)).trans (stacked_apply _ h o g)

end Cert.KernelIdeal.HostSide

end
-- ==== Proof.KernelValue.lean ====
/-
  From the blocks to the array. Grid point `t` (of eight) works on output features `t * 1024 … t * 1024 + 1023`: it is handed
  the whole re-laid `x` and the whole array of per-group sums, rows `t * 1024 …` of both packed slabs and of the scales,
  and columns `t * 1024 …` of the bias row, and writes back columns `t * 1024 …` of the result. With the arrays the region
  finds read back to the arguments, and the packed word's three-bit fields read back to the codes, what the body leaves at
  (p, j) is the split arrangement `K` at (p, t * 1024 + j); the eight blocks tile the result, so the whole array ends at `K`.
-/
import proofs.«420909_j51402168599335_3_alg».proof.Proof.Spec
import proofs.«420909_j51402168599335_3_alg».proof.Proof.Bits
import proofs.«420909_j51402168599335_3_alg».proof.Proof.KernelBody
import proofs.«420909_j51402168599335_3_alg».proof.Proof.HostSide
import proofs.«420909_j51402168599335_3_alg».proof.Proof.Gen.KernelIdeal.Value
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.ValueIdx Idealize.ShloMosaic.TcCoe Idealize.SL.Sem
open Idealize.ShloMosaic.Pipeline (Dat)
open Cert.Q3 (grp col)

variable (m : (ℓ : Loc nD τ sig) → Buf (Elt Ideal) ℓ) (ρ : Dev nD → PrngReg)

/-- Feature `j` of block `t`. -/
def feat (t : Fin cfg0.N) (j : Fin 1024) : Fin 8192 := ⟨t.val * 1024 + j.val, by have := t.isLt; have : t.val < 8 := this; omega⟩

/-- The split arrangement of the launch contents of the four arguments. -/
def Karr (c : Dev nD) : S64x8192.Idx → EReal :=
  Cert.Q3.K (HostSide.argX m c) (HostSide.argQ m c) (HostSide.argW m c) (HostSide.argB m c)

/-- The five input blocks at point `t`, at their literal types. -/
abbrev b0 (c : Dev nD) (t : Fin cfg0.N) : Vec Ideal S64x8192 .bf16 := iblk m c 0 t
abbrev b1 (c : Dev nD) (t : Fin cfg0.N) : Vec Ideal S64x512 .f32 := iblk m c 1 t
abbrev b2 (c : Dev nD) (t : Fin cfg0.N) : Vec Ideal S2x1024x512 .i32 := iblk m c 2 t
abbrev b3 (c : Dev nD) (t : Fin cfg0.N) : Vec Ideal S1024x512 .f32 := iblk m c 3 t
abbrev b4 (c : Dev nD) (t : Fin cfg0.N) : Vec Ideal S1x1024 .f32 := iblk m c 4 t

/-- The printed index maps over the grid: windows 0 and 1 stay at block (0, 0); window 2 is at (0, t, 0), window 3 at
    (t, 0), windows 4 and 5 at (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## Each input block, read where its window puts it -/

theorem blk0_apply (c : Dev nD) (t : Fin cfg0.N) (p : Fin 64) (k : Fin 8192) :
    b0 m c t (ix2 p k) = (V m c main_v45 : S64x8192.Idx → EReal) (ix2 p k) := by
  obtain ⟨e0, e1, -⟩ := idx_facts t
  show V m c main_v45 (((cfg0.win 0).blk t).view.emb (ix2 p k)) = V m c main_v45 (ix2 p k)
  refine congrArg _ (funext fun a => Fin.ext ?_)
  match a with
  | ⟨0, _⟩ => show win0_0.index t (0 : Fin 2) * 64 + 1 * p.val = p.val; omega
  | ⟨1, _⟩ => show win0_0.index t (1 : Fin 2) * 8192 + 1 * k.val = k.val; omega

theorem blk1_apply (c : Dev nD) (t : Fin cfg0.N) (p : Fin 64) (g : Fin 512) :
    b1 m c t (ix2 p g) = (V m c main_v46 : S64x512.Idx → EReal) (ix2 p g) := by
  obtain ⟨-, -, e0, e1, -⟩ := idx_facts t
  show V m c main_v46 (((cfg0.win 1).blk t).view.emb (ix2 p g)) = V m c main_v46 (ix2 p g)
  refine congrArg _ (funext fun a => Fin.ext ?_)
  match a with
  | ⟨0, _⟩ => show win0_1.index t (0 : Fin 2) * 64 + 1 * p.val = p.val; omega
  | ⟨1, _⟩ => show win0_1.index t (1 : Fin 2) * 512 + 1 * g.val = g.val; omega

theorem blk2_apply (c : Dev nD) (t : Fin cfg0.N) (h : Fin 2) (j : Fin 1024) (g : Fin 512) :
    b2 m c t (ix3 h j g) = (V m c main_v39 : S2x8192x512.Idx → BitVec 32) (ix3 h (feat t j) g) := by
  obtain ⟨-, -, -, -, e0, e1, e2, -⟩ := idx_facts t
  show V m c main_v39 (((cfg0.win 2).blk t).view.emb (ix3 h j g)) = V m c main_v39 (ix3 h (feat t j) g)
  refine congrArg _ (funext fun a => Fin.ext ?_)
  match a with
  | ⟨0, _⟩ => show win0_2.index t (0 : Fin 3) * 2 + 1 * h.val = h.val; omega
  | ⟨1, _⟩ => show win0_2.index t (1 : Fin 3) * 1024 + 1 * j.val = t.val * 1024 + j.val; omega
  | ⟨2, _⟩ => show win0_2.index t (2 : Fin 3) * 512 + 1 * g.val = g.val; omega

theorem blk3_apply (c : Dev nD) (t : Fin cfg0.N) (j : Fin 1024) (g : Fin 512) :
    b3 m c t (ix2 j g) = (V m c main_v40 : S8192x512.Idx → EReal) (ix2 (feat t j) g) := by
  obtain ⟨-, -, -, -, -, -, -, e0, e1, -⟩ := idx_facts t
  show V m c main_v40 (((cfg0.win 3).blk t).view.emb (ix2 j g)) = V m c main_v40 (ix2 (feat t j) g)
  refine congrArg _ (funext fun a => Fin.ext ?_)
  match a with
  | ⟨0, _⟩ => show win0_3.index t (0 : Fin 2) * 1024 + 1 * j.val = t.val * 1024 + j.val; omega
  | ⟨1, _⟩ => show win0_3.index t (1 : Fin 2) * 512 + 1 * g.val = g.val; omega

theorem blk4_apply (c : Dev nD) (t : Fin cfg0.N) (j : Fin 1024) :
    b4 m c t (ix2 (0 : Fin 1) j) = (V m c main_v41 : S1x8192.Idx → EReal) (ix2 (0 : Fin 1) (feat t j)) := by
  obtain ⟨-, -, -, -, -, -, -, -, -, e0, e1, -⟩ := idx_facts t
  show V m c main_v41 (((cfg0.win 4).blk t).view.emb (ix2 (0 : Fin 1) j)) = V m c main_v41 (ix2 (0 : Fin 1) (feat t j))
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * j.val = t.val * 1024 + j.val; omega

/-! ## The body's pieces over the arguments -/

/-- Position `r`'s partial product over the blocks at `t` is `Cert.Q3.part` at feature `t * 1024 + j`: the three bits of
    the packed word from bit `sh` up are code `r % 8` of half `r / 8` (`hsh`). -/
theorem part_eq (c : Dev nD) (t : Fin cfg0.N) (p : Fin 64) (j : Fin 1024) (r : Fin 16) (h : Fin 2) (hh : h.val = r.val / 8)
    (e : Fin 8) (he : e.val = r.val % 8) (off : Nat) (hoff : off + 512 ≤ 8192) (ho : off = r.val * 512) (sh : BitVec 32)
    (hsh : ∀ b0 b1 b2 : BitVec 32, Cert.Q3.field (Cert.Q3.pack3 b0 b1 b2) sh = Cert.Q3.code3 b0 b1 b2 e) :
    Body.part (b0 m c t) (b2 m c t) (b3 m c t) p j h off hoff sh
      = Cert.Q3.part (HostSide.argX m c) (HostSide.argQ m c) (HostSide.argW m c) p (feat t j) r := by
  have hr : r.val < 16 := r.isLt
  have hlt2 : r.val / 8 < 2 := by omega
  have hlt8 : r.val % 8 < 8 := by omega
  obtain rfl : h = ⟨r.val / 8, hlt2⟩ := Fin.ext hh
  obtain rfl : e = ⟨r.val % 8, hlt8⟩ := Fin.ext he
  unfold Body.part Cert.Q3.part
  refine Finset.sum_congr rfl fun g _ => ?_
  rw [blk0_apply, HostSide.xcat_apply m c p r g _ (by show off + g.val = r.val * 512 + g.val; omega),
    blk2_apply, HostSide.wpk_apply, hsh, blk3_apply, HostSide.scale_apply]
  rfl

/-- The correction term over the blocks is `Cert.Q3.corr`. -/
theorem corr_eq (c : Dev nD) (t : Fin cfg0.N) (p : Fin 64) (j : Fin 1024) :
    (∑ g : Fin 512, b1 m c t (ix2 p g) * b3 m c t (ix2 j g))
      = Cert.Q3.corr (HostSide.argX m c) (HostSide.argW m c) p (feat t j) := by
  unfold Cert.Q3.corr
  refine Finset.sum_congr rfl fun g _ => ?_
  rw [blk1_apply, HostSide.gsum_apply, blk3_apply, HostSide.scale_apply]

/-! ## What a point writes back, the cover, the array -/

/-- Point `t` writes back block `t` of `K`. -/
theorem flushed_eq (c : Dev nD) (t : Fin cfg0.N) :
    (dats m 0 c).flushed 5 t = ((cfg0.win 5).blk t).view.read (Elt Ideal) (Karr m c) := by
  rw [Value.flushed5]
  funext y
  obtain ⟨p, j, rfl⟩ : ∃ (p : Fin 64) (j : Fin 1024), y = ix2 p j := ⟨y 0, y 1, eq_ix2 (n0 := 64) (n1 := 1024) y⟩
  obtain ⟨-, -, -, -, -, -, -, -, -, -, -, e0, e1⟩ := idx_facts t
  have hemb : ((cfg0.win 5).blk t).view.emb (ix2 p j) = ix2 p (feat t j) := funext fun a => Fin.ext (by
    match a with
    | ⟨0, _⟩ => show win0_5.index t (0 : Fin 2) * 64 + 1 * p.val = p.val; omega
    | ⟨1, _⟩ => show win0_5.index t (1 : Fin 2) * 1024 + 1 * j.val = t.val * 1024 + j.val; omega)
  show out0_5 (iblk m c 0 t) (iblk m c 1 t) (iblk m c 2 t) (iblk m c 3 t) (iblk m c 4 t) (ix2 p j) = Karr m c (((cfg0.win 5).blk t).view.emb (ix2 p j))
  rw [hemb]
  refine (Body.out_apply (b0 m c t) (b1 m c t) (b2 m c t) (b3 m c t) (b4 m c t) p j).trans ?_
  rw [part_eq m c t p j 0 ⟨0, by omega⟩ rfl ⟨0, by omega⟩ rfl 0 (by omega) rfl 21#32 Cert.Q3.field_pack3_0,
    part_eq m c t p j 1 ⟨0, by omega⟩ rfl ⟨1, by omega⟩ rfl 512 (by omega) rfl 18#32 Cert.Q3.field_pack3_1,
    part_eq m c t p j 2 ⟨0, by omega⟩ rfl ⟨2, by omega⟩ rfl 1024 (by omega) rfl 15#32 Cert.Q3.field_pack3_2,
    part_eq m c t p j 3 ⟨0, by omega⟩ rfl ⟨3, by omega⟩ rfl 1536 (by omega) rfl 12#32 Cert.Q3.field_pack3_3,
    part_eq m c t p j 4 ⟨0, by omega⟩ rfl ⟨4, by omega⟩ rfl 2048 (by omega) rfl 9#32 Cert.Q3.field_pack3_4,
    part_eq m c t p j 5 ⟨0, by omega⟩ rfl ⟨5, by omega⟩ rfl 2560 (by omega) rfl 6#32 Cert.Q3.field_pack3_5,
    part_eq m c t p j 6 ⟨0, by omega⟩ rfl ⟨6, by omega⟩ rfl 3072 (by omega) rfl 3#32 Cert.Q3.field_pack3_6,
    part_eq m c t p j 7 ⟨0, by omega⟩ rfl ⟨7, by omega⟩ rfl 3584 (by omega) rfl 0#32 Cert.Q3.field_pack3_7,
    part_eq m c t p j 8 ⟨1, by omega⟩ rfl ⟨0, by omega⟩ rfl 4096 (by omega) rfl 21#32 Cert.Q3.field_pack3_0,
    part_eq m c t p j 9 ⟨1, by omega⟩ rfl ⟨1, by omega⟩ rfl 4608 (by omega) rfl 18#32 Cert.Q3.field_pack3_1,
    part_eq m c t p j 10 ⟨1, by omega⟩ rfl ⟨2, by omega⟩ rfl 5120 (by omega) rfl 15#32 Cert.Q3.field_pack3_2,
    part_eq m c t p j 11 ⟨1, by omega⟩ rfl ⟨3, by omega⟩ rfl 5632 (by omega) rfl 12#32 Cert.Q3.field_pack3_3,
    part_eq m c t p j 12 ⟨1, by omega⟩ rfl ⟨4, by omega⟩ rfl 6144 (by omega) rfl 9#32 Cert.Q3.field_pack3_4,
    part_eq m c t p j 13 ⟨1, by omega⟩ rfl ⟨5, by omega⟩ rfl 6656 (by omega) rfl 6#32 Cert.Q3.field_pack3_5,
    part_eq m c t p j 14 ⟨1, by omega⟩ rfl ⟨6, by omega⟩ rfl 7168 (by omega) rfl 3#32 Cert.Q3.field_pack3_6,
    part_eq m c t p j 15 ⟨1, by omega⟩ rfl ⟨7, by omega⟩ rfl 7680 (by omega) rfl 0#32 Cert.Q3.field_pack3_7,
    corr_eq, blk4_apply, HostSide.bias_apply]
  rfl

/-- An index of the result is in point `t`'s block iff each coordinate is in the block's range. -/
theorem mem_blk (t : Fin cfg0.N) (i : S64x8192.Idx) :
    i ∈ ((cfg0.win 5).blk t).view.set ↔ ∀ a : Fin 2, win0_5.index t a * S64x1024.size a ≤ (i a).val ∧ (i a).val < win0_5.index t a * S64x1024.size a + S64x1024.size a := by
  show i ∈ ((View.whole main_v47).slice (win0_5.rect t)).set ↔ _
  rw [View.set_slice_whole, Rect.mem_set_unit]
  exact Iff.rfl

/-- Every index of the result is in some point's block: feature `o` is in block `o / 1024`. -/
theorem cover (i : S64x8192.Idx) : ∃ t : Fin cfg0.N, (cfg0.win 5).flush t = true ∧ i ∈ ((cfg0.win 5).blk t).view.set := by
  have hi0 : (i 0).val < 64 := (i 0).isLt
  have hi1 : (i 1).val < 8192 := (i 1).isLt
  let t : Fin cfg0.N := ⟨(i 1).val / 1024, by show (i 1).val / 1024 < 8; omega⟩
  obtain ⟨-, -, -, -, -, -, -, -, -, -, -, e0, e1⟩ := idx_facts t
  have e1' : win0_5.index t (1 : Fin 2) = (i 1).val / 1024 := e1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 1024 ≤ (i 1).val ∧ (i 1).val < win0_5.index t (1 : Fin 2) * 1024 + 1024; omega

/-- The result array after the run is `K` of the arguments. -/
theorem final (c : Dev nD) : (dats m 0 c).arrAt 5 cfg0.N = Karr m c :=
  (dats m 0 c).arrAt_eq_of_cover 5 (Karr m c) (fun t _ => flushed_eq m c t) cover

/-- The kernel's run, read: the result at `K` of the arguments' launch contents, the arguments unchanged. -/
theorem run : θ_run defs (onTc (τ := τ) (main (F := Ideal))) ⟨m, fun _ => 0, ρ⟩ fun r => ∀ c : Dev nD,
      r.2.mem ((c : Thread nD τ).loc main_v47) = Karr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  The certificate of a linear layer over 3-bit block-quantised weights, `y = x · Wᵀ + b`, against its jnp reference.

  The weights: sixteen 3-bit codes a group, stored as six byte-valued words (two halves of three bytes, eight codes a
  half), and one scale `s` a group; the weight of code `c` is `((c / 7) * 2) * s - s`.
  The reference decodes every code from the bytes it lies in, forms the 8192 × 8192 weight matrix and multiplies.
  The kernel program packs each half's three bytes into one 24-bit word on the host; per block of 1024 output
  features the kernel reads the sixteen codes of a group off the two packed words by a shift and a mask, multiplies the
  columns of `x` at position `r` of every group by `c_r * (s * 2/7)` — sixteen products added from zero —, subtracts the
  product of the per-group sums of `x` with the scales, and adds the bias. The constant `2/7` is named, so at `Ideal` it is
  the rational.

  The two agree at `Ideal` for three reasons, one module each: the packed word's fields ARE the codes, for every 32-bit
  word (Bits.lean); with `x` and the scales finite — the precondition (Finite.lean) — the sum over the 8192 columns splits
  over (group, position) and `x * (c/7 * 2 * s - s) = x * (c * (s * 2/7)) - x * s` (Algebra.lean); and each program computes
  its arrangement: the reference `G` (RefValue.lean, over the generated run and its read-at-an-index lemmas), the kernel
  `K` (KernelBody.lean: the body at an index; HostSide.lean: the arrays the region finds; KernelValue.lean: the blocks tile
  the result). The frames of the two kernel programs are the generated ones; the reference's frame is its generated run.
-/
import proofs.«420909_j51402168599335_3_alg».proof.Defs
import proofs.«420909_j51402168599335_3_alg».proof.Proof.Gen.Kernel
import proofs.«420909_j51402168599335_3_alg».proof.Proof.Gen.Kernel.Skeleton
import proofs.«420909_j51402168599335_3_alg».proof.Proof.Gen.Kernel.Launch
import proofs.«420909_j51402168599335_3_alg».proof.Proof.Gen.Kernel.Points
import proofs.«420909_j51402168599335_3_alg».proof.Proof.Gen.Kernel.Frame
import proofs.«420909_j51402168599335_3_alg».proof.Proof.Gen.KernelIdeal
import proofs.«420909_j51402168599335_3_alg».proof.Proof.Gen.KernelIdeal.Skeleton
import proofs.«420909_j51402168599335_3_alg».proof.Proof.Gen.KernelIdeal.Launch
import proofs.«420909_j51402168599335_3_alg».proof.Proof.Gen.KernelIdeal.Points
import proofs.«420909_j51402168599335_3_alg».proof.Proof.Gen.KernelIdeal.Frame
import proofs.«420909_j51402168599335_3_alg».proof.Proof.Gen.ReferenceIdeal
import proofs.«420909_j51402168599335_3_alg».proof.Proof.Gen.Pre_finite_inputs
import proofs.«420909_j51402168599335_3_alg».proof.Proof.Gen.KernelIdeal.Value
import proofs.«420909_j51402168599335_3_alg».proof.Proof.Gen.ReferenceIdeal.Run
import proofs.«420909_j51402168599335_3_alg».proof.Proof.Gen.ReferenceIdeal.Read
import proofs.«420909_j51402168599335_3_alg».proof.Proof.Spec
import proofs.«420909_j51402168599335_3_alg».proof.Proof.Bits
import proofs.«420909_j51402168599335_3_alg».proof.Proof.Algebra
import proofs.«420909_j51402168599335_3_alg».proof.Proof.Finite
import proofs.«420909_j51402168599335_3_alg».proof.Proof.RefValue
import proofs.«420909_j51402168599335_3_alg».proof.Proof.KernelBody
import proofs.«420909_j51402168599335_3_alg».proof.Proof.HostSide
import proofs.«420909_j51402168599335_3_alg».proof.Proof.KernelValue
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the ideal pass: the constant named `c_2_7` is 2/7 by the certificate's table. -/
theorem preserves : Cert.preserves_Kernel_KernelIdeal :=
  IdealRules.named_const.statement Cert.KernelIdeal.κ "c_2_7" .f32 0x3E924925#32 ((2 / 7 : ℝ) : EReal) rfl

/-- From memories agreeing on the arguments, the kernel ends at the split arrangement `K` of them and the reference at
    the plain arrangement `G`; the precondition makes `x` and the scales finite, under which `K = G`. -/
theorem algebraic : Cert.algebraic_KernelIdeal_ReferenceIdeal := by
  intro m ρ m' ρ' hpre hagree
  refine ⟨fun c => Cert.KernelIdeal.Whole.Karr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2]
  obtain ⟨hx, hw, -⟩ := Cert.Q3.finite_of_pre _ _ _ _ (hpre c)
  exact (Cert.ReferenceIdeal.RefValue.ref_eq_G _ _ _ _).trans (Cert.Q3.K_eq_G _ _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
